-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256 : Shape := ⟨1, ![256]⟩
abbrev S100000x512 : Shape := ⟨2, ![100000, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg1 : IVec S256 32) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg1 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v13 main_v19
  main_v20

def fn {F : FTy → Type} [FloatOps F] (main_arg0 : FVec F S256x512 .f32) (main_arg1 : IVec S256 32) (main_arg2 : FVec F S256x512 .f32) (main_arg3 : FVec F S100000x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S100000x512 .f32 := Host.absf main_arg3
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg1 main_v14
  let main_c_5 : IVec S_ 32 := constantI S_ 32 100000#32
  fn_part1 (F := F) main_arg1 main_v13 main_v15 main_c_5
-- ==== Kernel.lean ====
abbrev S256x512 : Shape := ⟨2, ![256, 512]⟩
abbrev S256 : Shape := ⟨1, ![256]⟩
abbrev S100000x512 : Shape := ⟨2, ![100000, 512]⟩
abbrev S_ : Shape := ⟨0, ![]⟩
abbrev S256x1 : Shape := ⟨2, ![256, 1]⟩
abbrev S256x256 : Shape := ⟨2, ![256, 256]⟩
abbrev S8x256 : Shape := ⟨2, ![8, 256]⟩
abbrev S5000x512 : Shape := ⟨2, ![5000, 512]⟩
abbrev S256x128 : Shape := ⟨2, ![256, 128]⟩
abbrev S8x128 : Shape := ⟨2, ![8, 128]⟩
abbrev S1x1 : Shape := ⟨2, ![1, 1]⟩
abbrev S1000x512 : Shape := ⟨2, ![1000, 512]⟩
abbrev S256x1000 : Shape := ⟨2, ![256, 1000]⟩
abbrev S1x1000 : Shape := ⟨2, ![1, 1000]⟩
abbrev S1 : Shape := ⟨1, ![1]⟩
abbrev S256x2x128 : Shape := ⟨3, ![256, 2, 128]⟩
abbrev S256x2x1 : Shape := ⟨3, ![256, 2, 1]⟩
abbrev S256x2 : Shape := ⟨2, ![256, 2]⟩
abbrev S1x256 : Shape := ⟨2, ![1, 256]⟩
abbrev S2x128 : Shape := ⟨2, ![2, 128]⟩
abbrev S2x1 : Shape := ⟨2, ![2, 1]⟩
abbrev S2 : Shape := ⟨1, ![2]⟩

abbrev nBuf : Space → Nat
  | .hbm => 67
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S256x512, .f32⟩
  | .hbm, ⟨3, _⟩ => ⟨S100000x512, .f32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S256x512, .bf16⟩
  | .hbm, ⟨15, _⟩ => ⟨S256x1, .i32⟩
  | .hbm, ⟨16, _⟩ => ⟨S256x256, .f32⟩
  | .hbm, ⟨17, _⟩ => ⟨S8x256, .f32⟩
  | .hbm, ⟨18, _⟩ => ⟨S256x2x128, .f32⟩
  | .hbm, ⟨19, _⟩ => ⟨S256x2x1, .f32⟩
  | .hbm, ⟨20, _⟩ => ⟨S256x2, .f32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S256, .f32⟩
  | .hbm, ⟨25, _⟩ => ⟨S2x128, .f32⟩
  | .hbm, ⟨26, _⟩ => ⟨S2x1, .f32⟩
  | .hbm, ⟨27, _⟩ => ⟨S2, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S256x512, .bf16⟩
  | .local _ .vmem, ⟨1, _⟩ => ⟨S5000x512, .f32⟩
  | .local _ .vmem, ⟨2, _⟩ => ⟨S5000x512, .f32⟩
  | .local _ .vmem, ⟨3, _⟩ => ⟨S256x1, .i32⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S8x128, .f32⟩
  | .local _ .vmem, ⟨8, _⟩ => ⟨S256x1, .f32⟩
  | .local _ .vmem, ⟨9, _⟩ => ⟨S1x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 10], ![false, false]⟩

def k0_mult1 : BitVec 32 :=
  let c0_i32_8 : BitVec 32 := 0#32
  let c1000_i32 : BitVec 32 := 1000#32
  let v12 : BitVec 32 := Scalar.muli c0_i32_8 c1000_i32
  v12
def k0_off1 (c0_i32_8 : BitVec 32) : Fin 2 → Nat :=
  let c1000_i32 : BitVec 32 := 1000#32
  let v12 : BitVec 32 := Scalar.muli c0_i32_8 c1000_i32
  let v13 : BitVec 32 := v12
  let v14 : Index := Scalar.indexCast v13
  let c0_9 : Index := 0#32
  ![v14.toNat, 0]
def k0_mult2 : BitVec 32 :=
  let c1_i32 : BitVec 32 := 1#32
  let c1000_i32_18 : BitVec 32 := 1000#32
  let v45 : BitVec 32 := Scalar.muli c1_i32 c1000_i32_18
  v45
def k0_mult3 : BitVec 32 :=
  let c2_i32 : BitVec 32 := 2#32
  let c1000_i32_29 : BitVec 32 := 1000#32
  let v78 : BitVec 32 := Scalar.muli c2_i32 c1000_i32_29
  v78
def k0_mult4 : BitVec 32 :=
  let c3_i32 : BitVec 32 := 3#32
  let c1000_i32_40 : BitVec 32 := 1000#32
  let v111 : BitVec 32 := Scalar.muli c3_i32 c1000_i32_40
  v111
def k0_mult5 : BitVec 32 :=
  let c4_i32 : BitVec 32 := 4#32
  let c1000_i32_51 : BitVec 32 := 1000#32
  let v144 : BitVec 32 := Scalar.muli c4_i32 c1000_i32_51
  v144
def k0_cond2 (i : grid0.Coords) : BitVec 1 :=
  let arg1 : BitVec 32 := BitVec.ofNat 32 (i 1).val
  let c9_i32 : BitVec 32 := 9#32
  let v183 : BitVec 1 := Scalar.cmpi .eq arg1 c9_i32
  let v184 : BitVec 32 := Scalar.extui v183
  let c0_i32_66 : BitVec 32 := 0#32
  let v185 : BitVec 1 := Scalar.cmpi .ne v184 c0_i32_66
  v185

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  bitsLt_bf16_f32 : FTy.bits .bf16 < FTy.bits .f32
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  h_S1000x512 : 0 < S1000x512.numel
  iota_S1x1000_d1_w32 : S1x1000.Iotas .tc 32 [1]
  broadcasts_S256x1_S256x1000 : S256x1.Broadcasts S256x1000
  broadcasts_S1x1000_S256x1000 : S1x1000.Broadcasts S256x1000
  reduces_S256x1000_S256 : S256x1000.Reduces [1] S256
  reduces_S256x1_S1 : S256x1.Reduces [0] S1
  shapeCasts_S1_S1x1 : S1.ShapeCasts S1x1
  broadcasts_S256x1_S256x128 : S256x1.Broadcasts S256x128
  inb_S256x128_S256x128_0_0 : ∀ a, (![0, 0] : Fin 2 → Nat) a + S256x128.size a ≤ S256x128.size a
  h_S256x128 : 0 < S256x128.numel
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S256x256_S256x2x128 : S256x256.ShapeCasts S256x2x128
  slices_S256x2x128_S256x2x1_0_0_0 : S256x2x128.Slices ![0, 0, 0] S256x2x1
  shapeCasts_S256x2x1_S256x2 : S256x2x1.ShapeCasts S256x2
  reducesTo_S256x2_S256_d1 : S256x2.ReducesTo [1] S256
  slices_S8x256_S1x256_0_0 : S8x256.Slices ![0, 0] S1x256
  shapeCasts_S1x256_S256 : S1x256.ShapeCasts S256
  shapeCasts_S256_S2x128 : S256.ShapeCasts S2x128
  slices_S2x128_S2x1_0_0 : S2x128.Slices ![0, 0] S2x1
  shapeCasts_S2x1_S2 : S2x1.ShapeCasts S2
  reducesTo_S2_S_d0 : S2.ReducesTo [0] S_
  bcast_S_S256 : S_.BroadcastsInDim S256 (![] : Fin 0 → Fin S256.rank)
  reducesTo_S256_S_d0 : S256.ReducesTo [0] S_
  dot_S256x512_S1000x512_S256x1000_1_1_0_0_n_n_wf : DotDims.WF S256x512 S1000x512 S256x1000 [1] [1] [0] [0] [] []
  hrank0 : 0 < grid0.rank
  k0_mult1_dvd : 1000 ∣ k0_mult1.toNat
  k0_off1_inb : ∀ (r : Fin 5), ∀ a, (k0_off1 (BitVec.ofNat 32 r.val)) a + S1000x512.size a ≤ S5000x512.size a
  k0_mult2_dvd : 1000 ∣ k0_mult2.toNat
  k0_mult3_dvd : 1000 ∣ k0_mult3.toNat
  k0_mult4_dvd : 1000 ∣ k0_mult4.toNat
  k0_mult5_dvd : 1000 ∣ k0_mult5.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .bf16 = 32 ∨ (Rect.block (s := S256x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S100000x512.size a
  hwx0_1 : ∀ i : grid0.Coords, EltTy.bits .f32 = 32 ∨ (Rect.block (s := S100000x512) S5000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x256.size a
  hwx0_3 : ∀ i : grid0.Coords, EltTy.bits .f32 = 32 ∨ (Rect.block (s := S256x256) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x256.size a
  hwx0_4 : ∀ i : grid0.Coords, EltTy.bits .f32 = 32 ∨ (Rect.block (s := S8x256) S8x128.size (cc0_transform_4 i) (hinb0_4 i)).WholeWords (EltTy.packing .f32)

variable [Facts₀]

def dot_S256x512_S1000x512_S256x1000_1_1_0_0_n_n : DotDims S256x512 S1000x512 S256x1000 where
  lhsContracting := [1]
  rhsContracting := [1]
  lhsNonContracting := [0]
  rhsNonContracting := [0]
  lhsBatch := []
  rhsBatch := []
  wf := dot_S256x512_S1000x512_S256x1000_1_1_0_0_n_n_wf

abbrev win0_0 : Pipeline.Window sig grid0 :=
  Pipeline.Window.ofSpec (Memref.whole main_v5) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512 : Shape := ⟨2, ![256, 512]⟩
abbrev S256 : Shape := ⟨1, ![256]⟩
abbrev S100000x512 : Shape := ⟨2, ![100000, 512]⟩
abbrev S_ : Shape := ⟨0, ![]⟩
abbrev S256x1 : Shape := ⟨2, ![256, 1]⟩
abbrev S512x100000 : Shape := ⟨2, ![512, 100000]⟩
abbrev S256x100000 : Shape := ⟨2, ![256, 100000]⟩
abbrev S256x2 : Shape := ⟨2, ![256, 2]⟩
abbrev S1x100000 : Shape := ⟨2, ![1, 100000]⟩

abbrev nBuf : Space → Nat
  | .hbm => 106
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S256x512, .f32⟩
  | .hbm, ⟨3, _⟩ => ⟨S100000x512, .f32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S512x100000, .f32⟩
  | .hbm, ⟨15, _⟩ => ⟨S256x100000, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256x1, .i32⟩
  | .hbm, ⟨50, _⟩ => ⟨S256x1, .i32⟩
  | .hbm, ⟨51, _⟩ => ⟨S256x2, .i32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256x1, .i32⟩
  | .hbm, ⟨68, _⟩ => ⟨S_, .i32⟩
  | .hbm, ⟨69, _⟩ => ⟨S256x1, .i32⟩
  | .hbm, ⟨70, _⟩ => ⟨S256x1, .i1⟩
  | .hbm, ⟨71, _⟩ => ⟨S256x1, .f32⟩
  | .hbm, ⟨72, _⟩ => ⟨S256x1, .i32⟩
  | .hbm, ⟨73, _⟩ => ⟨S1x100000, .i32⟩
  | .hbm, ⟨74, _⟩ => ⟨S256x100000, .i32⟩
  | .hbm, ⟨75, _⟩ => ⟨S256x100000, .i32⟩
  | .hbm, ⟨76, _⟩ => ⟨S256x100000, .i1⟩
  | .hbm, ⟨77, _⟩ => ⟨S256x100000, .f32⟩
  | .hbm, ⟨78, _⟩ => ⟨S_, .f32⟩
  | .hbm, ⟨79, _⟩ => ⟨S256x100000, .f32⟩
  | .hbm, ⟨80, _⟩ => ⟨S256x100000, .f32⟩
  | .hbm, ⟨81, _⟩ => ⟨S256x100000, .f32⟩
  | .hbm, ⟨82, _⟩ => ⟨S256x100000, .f32⟩
  | .hbm, ⟨83, _⟩ => ⟨S_, .f32⟩
  | .hbm, ⟨84, _⟩ => ⟨S256x100000, .f32⟩
  | .hbm, ⟨85, _⟩ => ⟨S256x100000, .f32⟩
  | .hbm, ⟨86, _⟩ => ⟨S_, .f32⟩
  | .hbm, ⟨87, _⟩ => ⟨S256x100000, .f32⟩
  | .hbm, ⟨88, _⟩ => ⟨S256x100000, .f32⟩
  | .hbm, ⟨89, _⟩ => ⟨S_, .f32⟩
  | .hbm, ⟨90, _⟩ => ⟨S256x100000, .f32⟩
  | .hbm, ⟨91, _⟩ => ⟨S256x100000, .f32⟩
  | .hbm, ⟨92, _⟩ => ⟨S_, .f32⟩
  | .hbm, ⟨93, _⟩ => ⟨S256x100000, .f32⟩
  | .hbm, ⟨94, _⟩ => ⟨S256x100000, .f32⟩
  | .hbm, ⟨95, _⟩ => ⟨S256x100000, .f32⟩
  | .hbm, ⟨96, _⟩ => ⟨S256x100000, .f32⟩
  | .hbm, ⟨97, _⟩ => ⟨S256x100000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S100000x512_S512x100000_1_0 : S100000x512.Transposes [1, 0] S512x100000
  bcast_S_S256 : S_.BroadcastsInDim S256 (![] : Fin 0 → Fin S256.rank)
  concatenates_S256x1_S256x1_S256x2_d1 : Shape.Concatenates [S256x1, S256x1] S256x2 1
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  bcast_S_S256x100000 : S_.BroadcastsInDim S256x100000 (![] : Fin 0 → Fin S256x100000.rank)
  reducesTo_S256x100000_S_d0_1 : S256x100000.ReducesTo [0, 1] S_
  reducesTo_S256_S_d0 : S256.ReducesTo [0] S_
  dot_S256x512_S512x100000_S256x100000_1_0_0_1_n_n_wf : DotDims.WF S256x512 S512x100000 S256x100000 [1] [0] [0] [1] [] []
  gather_S256x100000_S256x2_S256_n_01_n_n_01_1_11_wf : GatherDims.WF S256x100000 S256x2 S256 [] [0, 1] [] [0, 1] [] 1 ![1, 1]

variable [Facts₀]

def dot_S256x512_S512x100000_S256x100000_1_0_0_1_n_n : DotDims S256x512 S512x100000 S256x100000 where
  lhsContracting := [1]
  rhsContracting := [0]
  lhsNonContracting := [0]
  rhsNonContracting := [1]
  lhsBatch := []
  rhsBatch := []
  wf := dot_S256x512_S512x100000_S256x100000_1_0_0_1_n_n_wf
def gather_S256x100000_S256x2_S256_n_01_n_n_01_1_11 : GatherDims S256x100000 S256x2 S256 where
  offsetDims := []
  collapsedSliceDims := [0, 1]
  operandBatchingDims := []
  startIndicesBatchingDims := []
  startIndexMap := [0, 1]
  indexVectorDim := 1
  sliceSizes := ![1, 1]
  wf := gather_S256x100000_S256x2_S256_n_01_n_n_01_1_11_wf

class Facts : Prop extends Facts₀ where

variable [Facts]
-- ==== Proof.Spec.lean ====
/-
  The mathematics of the circle loss that both programs compute, over the extended reals, with no program in sight.

  Rows `b < 256` carry a unit-scaled embedding `ff b` (512 entries) and a class label; classes `col < 100000` carry a
  weight row `W col`. The logit of a row against a class is the inner product of the two rows. From the logit at a row's
  own label the positive term is formed, from the logits at all the other classes the negative terms, and the loss is
  `log (1 + (sum of negative terms) * (sum of positive terms))`.

  The negative sum is reached in two ways: by masking the label column out before summing, or by summing every column
  and taking the label column's term away afterwards. The two agree as soon as every term is a real number (an infinite
  term could not be taken away again), which is what finiteness of the inputs gives.
-/
import Idealize.ShloMosaic.Lib.ValueIdx
import Idealize.ShloMosaic.PureOps.Ideal.Laws
import Mathlib.Algebra.BigOperators.Fin
import Mathlib.Tactic.Ring
import Mathlib.Tactic.NormNum

noncomputable section

open scoped BigOperators

namespace Cert.Circle

open Idealize.ShloMosaic Idealize.ShloMosaic.ValueIdx

/-- The shape of the embeddings, of the weights and of the labels. -/
abbrev SBD : Shape := ⟨2, ![256, 512]⟩
abbrev SCD : Shape := ⟨2, ![100000, 512]⟩
abbrev SB : Shape := ⟨1, ![256]⟩

/-! ## The constants, as the words the programs print -/

/-- `0`. -/
abbrev k0 : EReal := Ideal.ofBits .f32 0x00000000#32
/-- `1`. -/
abbrev k1 : EReal := Ideal.ofBits .f32 0x3F800000#32
/-- The margin `0.25`. -/
abbrev kq : EReal := Ideal.ofBits .f32 0x3E800000#32
/-- The scale `64`. -/
abbrev k64 : EReal := Ideal.ofBits .f32 0x42800000#32
/-- `-64`. -/
abbrev km64 : EReal := Ideal.ofBits .f32 0xC2800000#32
/-- The positive optimum `1.25`. -/
abbrev k125 : EReal := Ideal.ofBits .f32 0x3FA00000#32
/-- The positive margin `0.75`. -/
abbrev k075 : EReal := Ideal.ofBits .f32 0x3F400000#32
/-- The clamp `1e-12` of the norm. -/
abbrev keps : EReal := Ideal.ofBits .f32 0x2B8CBCCC#32

theorem k0_eq : k0 = 0 := Ideal.ofBits_zero_f32
theorem k1_eq : k1 = 1 := by
  show Ideal.ofBits .f32 0x3F800000#32 = ((1 : ℝ) : EReal)
  simp [Ideal.ofBits, Ideal.ieee, -EReal.coe_mul] <;> norm_num
theorem kq_real : ∃ r : ℝ, kq = (r : EReal) := ⟨1 / 4, by
  show Ideal.ofBits .f32 0x3E800000#32 = _
  simp [Ideal.ofBits, Ideal.ieee, -EReal.coe_mul] <;> norm_num⟩
theorem k64_real : ∃ r : ℝ, k64 = (r : EReal) := ⟨64, by
  show Ideal.ofBits .f32 0x42800000#32 = _
  simp [Ideal.ofBits, Ideal.ieee, -EReal.coe_mul] <;> norm_num⟩
theorem keps_pos_real : ∃ r : ℝ, 0 < r ∧ keps = (r : EReal) := by
  refine ⟨(9223372 : ℝ) / 2 ^ 63, by positivity, ?_⟩
  show Ideal.ofBits .f32 0x2B8CBCCC#32 = _
  simp [Ideal.ofBits, Ideal.ieee, -EReal.coe_mul] <;> norm_num

/-! ## Logits and terms -/

/-- The logit of row `b` against class `col`: the inner product of the embedding row and the weight row. -/
def logit (ff : SBD.Idx → EReal) (W : SCD.Idx → EReal) (b : Fin 256) (col : Fin 100000) : EReal :=
  ∑ d : Fin 512, ff (ix2 b d) * W (ix2 col d)

/-- The term of a negative pair at logit `x`: `exp (64 · max (x + 0.25) 0 · (x − 0.25))`. -/
def negTerm (x : EReal) : EReal := Ideal.exp ((k64 * max (x + kq) k0) * (x - kq))

/-- The term of the positive pair at logit `x`: `exp (−64 · max (1.25 − x) 0 · (x − 0.75))`. -/
def posTerm (x : EReal) : EReal := Ideal.exp ((km64 * max (k125 - x) k0) * (x - k075))

/-- The loss from the label logits `g` and the negative sum. -/
def loss (g : Fin 256 → EReal) (sneg : EReal) : EReal :=
  Ideal.log (k1 + sneg * (k0 + ∑ b : Fin 256, posTerm (g b)))

/-- The embedding rows scaled to unit length, the length clamped below at `1e-12`. -/
def normalize (emb : SBD.Idx → EReal) : SBD.Idx → EReal := fun i =>
  Ideal.div (emb i) (max (Ideal.sqrt (k0 + ∑ d : Fin 512, emb (ix2 (i 0) d) * emb (ix2 (i 0) d))) keps)

/-! ## The reference's reading of a label, and its loss -/

/-- The class the reference reads for a label word: a negative word wraps round by the number of classes, and the
    result, read signed, is clamped into the classes. -/
def refCol (w : BitVec 32) : Fin 100000 :=
  ⟨min (if w.toInt < 0 then w + 100000#32 else w).toInt.toNat 99999, by omega⟩

/-- The reference's loss: the positive terms at the logits of the classes it reads for the labels, the negative terms
    masked by `1 · (1 − [the class is the label word])`. -/
def refLoss (ff : SBD.Idx → EReal) (W : SCD.Idx → EReal) (lab : SB.Idx → BitVec 32) : EReal :=
  loss (fun b => logit ff W b (refCol (lab (ix1 b))))
    (k0 + ∑ b : Fin 256, ∑ col : Fin 100000,
      negTerm (logit ff W b col) * (1 * (1 - (if lab (ix1 b) = BitVec.ofNat 32 col.val then (1 : EReal) else 0))))

/-! ## The kernel's accumulation, class number by class number -/

/-- The weight row of class number `n`, zero beyond the classes. -/
def Wn (W : SCD.Idx → EReal) (n : ℕ) (d : Fin 512) : EReal := if h : n < 100000 then W (ix2 ⟨n, h⟩ d) else 0

/-- The logit of row `b` against class number `n`. -/
def logitN (ff : SBD.Idx → EReal) (W : SCD.Idx → EReal) (b : Fin 256) (n : ℕ) : EReal :=
  ∑ d : Fin 512, ff (ix2 b d) * Wn W n d

theorem logitN_of_lt (ff : SBD.Idx → EReal) (W : SCD.Idx → EReal) (b : Fin 256) {n : ℕ} (h : n < 100000) :
    logitN ff W b n = logit ff W b ⟨n, h⟩ := by
  unfold logitN logit Wn
  simp only [dif_pos h]

/-- Row `b`'s logit against class number `n` where that number is the row's label word, zero elsewhere. -/
def pickN (ff : SBD.Idx → EReal) (W : SCD.Idx → EReal) (lab : SB.Idx → BitVec 32) (b : Fin 256) (n : ℕ) : EReal :=
  if lab (ix1 b) = BitVec.ofNat 32 n then logitN ff W b n else 0

/-- The negative terms of class number `n`, summed over the rows. -/
def negCol (ff : SBD.Idx → EReal) (W : SCD.Idx → EReal) (n : ℕ) : EReal := ∑ b : Fin 256, negTerm (logitN ff W b n)

/-- What half `c` of the classes has gathered of row `b`'s label logit after its first `n` classes. -/
def spPart (ff : SBD.Idx → EReal) (W : SCD.Idx → EReal) (lab : SB.Idx → BitVec 32) (c n : ℕ) (b : Fin 256) : EReal :=
  ∑ j ∈ Finset.range n, pickN ff W lab b (c * 50000 + j)

/-- What half `c` of the classes has gathered of the negative terms after its first `n` classes. -/
def snPart (ff : SBD.Idx → EReal) (W : SCD.Idx → EReal) (c n : ℕ) : EReal :=
  ∑ j ∈ Finset.range n, negCol ff W (c * 50000 + j)

/-- The loss from the two halves' stripes of the two result arrays: the label logit of a row is the sum of the two
    halves' first lanes, the unmasked negative sum likewise, and the label columns' terms are taken away afterwards. -/
def tailLoss (osp : (⟨2, ![256, 256]⟩ : Shape).Idx → EReal) (osn : (⟨2, ![8, 256]⟩ : Shape).Idx → EReal) : EReal :=
  loss (fun b => k0 + ∑ c : Fin 2, osp (ix2 b ⟨c.val * 128, by omega⟩))
    ((k0 + ∑ c : Fin 2, osn (ix2 (0 : Fin 8) ⟨c.val * 128, by omega⟩))
      - (k0 + ∑ b : Fin 256, negTerm (k0 + ∑ c : Fin 2, osp (ix2 b ⟨c.val * 128, by omega⟩))))

/-- The kernel's loss: `tailLoss` of result arrays whose stripes hold the halves' full accumulations. -/
def kerLoss (ff : SBD.Idx → EReal) (W : SCD.Idx → EReal) (lab : SB.Idx → BitVec 32) : EReal :=
  loss (fun b => k0 + ∑ c : Fin 2, spPart ff W lab c.val 50000 b)
    ((k0 + ∑ c : Fin 2, snPart ff W c.val 50000)
      - (k0 + ∑ b : Fin 256, negTerm (k0 + ∑ c : Fin 2, spPart ff W lab c.val 50000 b)))

/-! ## Real-valued inputs give real-valued terms -/

/-- The maximum of two reals, among the extended reals. -/
theorem coe_max (a b : ℝ) : ((max a b : ℝ) : EReal) = max (a : EReal) (b : EReal) :=
  EReal.coe_strictMono.monotone.map_max

/-- A finite sum of reals, among the extended reals, is a real. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self _ _)
    exact ⟨q + r, by rw [Finset.sum_insert ha, hr, hq, EReal.coe_add]⟩

/-- A scaled embedding is real where the embedding is. -/
theorem normalize_real (emb : SBD.Idx → EReal) (h : ∀ i, ∃ r : ℝ, emb i = (r : EReal)) (i : SBD.Idx) :
    ∃ r : ℝ, normalize emb i = (r : EReal) := by
  obtain ⟨x, hx⟩ := h i
  obtain ⟨s, hs⟩ := sum_real Finset.univ (fun d : Fin 512 => emb (ix2 (i 0) d) * emb (ix2 (i 0) d)) (fun d _ => by
    obtain ⟨y, hy⟩ := h (ix2 (i 0) d)
    exact ⟨y * y, by rw [hy, EReal.coe_mul]⟩)
  obtain ⟨e, he0, he⟩ := keps_pos_real
  unfold normalize
  rw [hx, hs, k0_eq, zero_add, he]
  have hsq : ∃ q : EReal, Ideal.sqrt (s : EReal) = q ∧ (q = ⊥ ∨ ∃ t : ℝ, q = (t : EReal)) := by
    refine ⟨_, rfl, ?_⟩
    rw [Ideal.sqrt_coe]
    split
    · exact Or.inl rfl
    · exact Or.inr ⟨_, rfl⟩
  obtain ⟨q, hq, hq'⟩ := hsq
  rw [hq]
  have hm : ∃ t : ℝ, 0 < t ∧ max q (e : EReal) = (t : EReal) := by
    rcases hq' with rfl | ⟨t, rfl⟩
    · exact ⟨e, he0, max_eq_right bot_le⟩
    · refine ⟨max t e, lt_max_of_lt_right he0, ?_⟩
      exact (coe_max t e).symm
  obtain ⟨t, ht0, ht⟩ := hm
  rw [ht, Ideal.div_coe (ne_of_gt ht0)]
  exact ⟨x * (1 / t), by rw [EReal.coe_mul]⟩

/-- A logit of real rows is real. -/
theorem logit_real (ff : SBD.Idx → EReal) (W : SCD.Idx → EReal) (hf : ∀ i, ∃ r : ℝ, ff i = (r : EReal))
    (hW : ∀ i, ∃ r : ℝ, W i = (r : EReal)) (b : Fin 256) (col : Fin 100000) : ∃ r : ℝ, logit ff W b col = (r : EReal) :=
  sum_real _ _ (fun d _ => by
    obtain ⟨x, hx⟩ := hf (ix2 b d)
    obtain ⟨y, hy⟩ := hW (ix2 col d)
    exact ⟨x * y, by rw [hx, hy, EReal.coe_mul]⟩)

/-- The negative term at a real logit is real. -/
theorem negTerm_real (x : ℝ) : ∃ r : ℝ, negTerm (x : EReal) = (r : EReal) := by
  obtain ⟨q, hq⟩ := kq_real
  obtain ⟨s, hs⟩ := k64_real
  unfold negTerm
  rw [hq, hs, k0_eq]
  have h1 : ((x : EReal) + (q : EReal)) = ((x + q : ℝ) : EReal) := (EReal.coe_add x q).symm
  have h2 : ((x : EReal) - (q : EReal)) = ((x - q : ℝ) : EReal) := (EReal.coe_sub x q).symm
  have h3 : max ((x + q : ℝ) : EReal) 0 = ((max (x + q) 0 : ℝ) : EReal) := by
    rw [← EReal.coe_zero]; exact (coe_max _ _).symm
  rw [h1, h2, h3, ← EReal.coe_mul, ← EReal.coe_mul, Ideal.exp_coe]
  exact ⟨_, rfl⟩

/-! ## The two bridges -/

/-- Summing, over the classes, the logit where the class is the label and zero elsewhere picks the label's logit. -/
theorem sum_pick {κ : Type*} [Fintype κ] [DecidableEq κ] {M : Type*} [AddCommMonoid M] (l : κ) (x : κ → M) :
    ∑ col : κ, (if col = l then x col else 0) = x l := by
  rw [Finset.sum_ite_eq' Finset.univ l x, if_pos (Finset.mem_univ _)]

/-- A finite sum of reals, among the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- THE NEGATIVE SUM, two ways. With real terms `E b col`: the sum of every term less the sum of the label columns'
    terms is the sum of the terms masked by `1 · (1 − [col is the label])`. -/
theorem neg_sum_bridge {ι κ : Type} [Fintype ι] [Fintype κ] [DecidableEq κ] (E : ι → κ → ℝ) (l : ι → κ) (δ : ι → κ → EReal)
    (hδ : ∀ b col, δ b col = if col = l b then 1 else 0) :
    (0 + ∑ b : ι, ∑ col : κ, (E b col : EReal)) - (0 + ∑ b : ι, (E b (l b) : EReal))
      = 0 + ∑ b : ι, ∑ col : κ, (E b col : EReal) * (1 * (1 - δ b col)) := by
  have h11 : (1 : EReal) - 1 = 0 := by rw [← EReal.coe_one, ← EReal.coe_sub, sub_self, EReal.coe_zero]
  have hterm : ∀ b col, (E b col : EReal) * (1 * (1 - δ b col)) = ((if col = l b then 0 else E b col : ℝ) : EReal) := by
    intro b col
    rw [hδ]
    by_cases h : col = l b
    · rw [if_pos h, if_pos h, h11, mul_zero, mul_zero, EReal.coe_zero]
    · rw [if_neg h, if_neg h, sub_zero, mul_one, mul_one]
  have hrow : ∀ b, ∑ col : κ, (E b col : EReal) * (1 * (1 - δ b col)) = ((∑ col : κ, E b col - E b (l b) : ℝ) : EReal) := by
    intro b
    rw [Finset.sum_congr rfl (fun col _ => hterm b col), coe_sum]
    congr 1
    have hs := Finset.sum_ite_eq' Finset.univ (l b) (fun col => E b col)
    rw [if_pos (Finset.mem_univ _)] at hs
    have hsplit : ∀ col, (if col = l b then 0 else E b col) = E b col - (if col = l b then E b col else 0) := by
      intro col; by_cases h : col = l b
      · rw [if_pos h, if_pos h, sub_self]
      · rw [if_neg h, if_neg h, sub_zero]
    rw [Finset.sum_congr rfl (fun col _ => hsplit col), Finset.sum_sub_distrib, hs]
  rw [Finset.sum_congr rfl (fun b _ => hrow b), zero_add, zero_add, zero_add]
  rw [Finset.sum_congr rfl (fun b _ => coe_sum Finset.univ (fun col => E b col)), coe_sum, coe_sum, coe_sum, ← EReal.coe_sub,
    Finset.sum_sub_distrib]

end Cert.Circle

end
-- ==== Proof.Pre.lean ====
/-
  From the stated precondition to what the proof uses of it: every embedding entry and every weight entry is a real
  number, and every label word, read signed, is a class number.
-/
import proofs.«401017_j79980880986260_3_alg».proof.Pre_finite_inputs
import proofs.«401017_j79980880986260_3_alg».proof.Proof.Spec
import Idealize.ShloMosaic.Lib.ReduceAll
import Idealize.ShloMosaic.Lib.StableHlo.Predicate

noncomputable section

namespace Cert.Circle

open Idealize.ShloMosaic Idealize.ShloMosaic.ValueIdx

/-- The f32 word `0x7F800000` is `+∞`, the greatest extended real. -/
private theorem inf_word : Ideal.ofBits .f32 0x7F800000#32 = (⊤ : EReal) := by
  simp [Ideal.ofBits, Ideal.ieee]

/-- An extended real whose absolute value `max x (-x)` lies strictly below `+∞` is a real number: at `⊥` and at `⊤`
    that maximum is `⊤` itself. -/
private theorem real_of_abs_lt (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

/-- The two signed comparisons of a label word, `w ≥ 0` and `w < 100000`, read on its signed value. -/
private theorem label_range (w : BitVec 32) (h0 : IntOp.cmpi .sge w 0#32 = 1#1) (h1 : IntOp.cmpi .slt w 100000#32 = 1#1) :
    0 ≤ w.toInt ∧ w.toInt < 100000 := by
  have e1 : (100000#32 : BitVec 32).toInt = 100000 := by decide
  have e0 : (0#32 : BitVec 32).toInt = 0 := by decide
  simp only [IntOp.cmpi, StableHlo.Predicate.ofBool_eq_one_iff, BitVec.sle, BitVec.slt, decide_eq_true_eq, e0, e1] at h0 h1
  exact ⟨h0, h1⟩

/-- The precondition, all ones, gives: real embeddings, real weights, labels in `[0, 100000)`. -/
theorem of_pre [Cert.Pre_finite_inputs.Facts] (x : FVec Ideal SBD .f32) (lab : IVec SB 32) (emb : FVec Ideal SBD .f32)
    (W : FVec Ideal SCD .f32) (h : Cert.Pre_finite_inputs.fn (F := Ideal) x lab emb W = fun _ => 1#1) :
    (∀ i, ∃ r : ℝ, emb i = (r : EReal)) ∧ (∀ i, ∃ r : ℝ, W i = (r : EReal))
      ∧ (∀ i, 0 ≤ (lab i).toInt ∧ (lab i).toInt < 100000) := by
  -- the scalar shape has one index, so a conjunction over all axes speaks of every element
  haveI : Subsingleton Cert.Pre_finite_inputs.S_.Idx := ⟨fun a b => funext fun d => d.elim0⟩
  have h0 := congrFun h ValueIdx.ix0
  simp only [Cert.Pre_finite_inputs.fn, Cert.Pre_finite_inputs.fn_part1] at h0
  -- the result is ((x finite ∧ emb finite) ∧ W finite) ∧ labels in range: each conjunct is 1
  obtain ⟨h123, hL⟩ := IntOp.andi_eq_one.1 (show IntOp.andi _ _ = 1#1 from h0)
  obtain ⟨h12, hW⟩ := IntOp.andi_eq_one.1 (show IntOp.andi _ _ = 1#1 from h123)
  obtain ⟨_, hE⟩ := IntOp.andi_eq_one.1 (show IntOp.andi _ _ = 1#1 from h12)
  refine ⟨fun i => ?_, fun i => ?_, fun i => ?_⟩
  · exact real_of_abs_lt (emb i) (Host.reduce_andi_all _ _ _ _ _ hE i)
  · exact real_of_abs_lt (W i) (Host.reduce_andi_all _ _ _ _ _ hW i)
  · obtain ⟨a, b⟩ := IntOp.andi_eq_one.1 (show IntOp.andi _ _ = 1#1 from Host.reduce_andi_all _ _ _ _ _ hL i)
    exact label_range (lab i) a b

end Cert.Circle

end
-- ==== Proof.Bridge.lean ====
/-
  The two losses agree: with real logits and labels that are class numbers, what the two halves of the classes gather
  (the label logit of each row, and every negative term less the label columns' terms) is what the reference computes
  (the logit read at the label, and the negative terms masked at the label column).
-/
import proofs.«401017_j79980880986260_3_alg».proof.Proof.Spec

noncomputable section

open scoped BigOperators

namespace Cert.Circle

open Idealize.ShloMosaic Idealize.ShloMosaic.ValueIdx

/-! ## A label word that is a class number -/

/-- A word whose signed reading lies among the class numbers reads the same unsigned, below the number of classes. -/
private theorem word_toNat {w : BitVec 32} (h : 0 ≤ w.toInt ∧ w.toInt < 100000) :
    w.toNat < 100000 ∧ w.toInt = (w.toNat : ℤ) := by
  have hlt := w.isLt
  rw [BitVec.toInt_eq_toNat_cond] at h
  rw [BitVec.toInt_eq_toNat_cond]
  split at h <;> split <;> omega

/-- The class a label word names. -/
private def wordCol (w : BitVec 32) (h : 0 ≤ w.toInt ∧ w.toInt < 100000) : Fin 100000 :=
  ⟨w.toNat, (word_toNat h).1⟩

/-- The reference reads that class: the word is not negative, and the clamp leaves it alone. -/
private theorem refCol_eq (w : BitVec 32) (h : 0 ≤ w.toInt ∧ w.toInt < 100000) : refCol w = wordCol w h := by
  obtain ⟨h1, h2⟩ := word_toNat h
  unfold refCol wordCol
  apply Fin.ext
  show min (if w.toInt < 0 then w + 100000#32 else w).toInt.toNat 99999 = w.toNat
  rw [if_neg (not_lt.mpr h.1), h2, Int.toNat_natCast]
  omega

/-- A class number's word is the label word exactly at the class the label names. -/
private theorem word_eq_iff (w : BitVec 32) (h : 0 ≤ w.toInt ∧ w.toInt < 100000) (col : Fin 100000) :
    w = BitVec.ofNat 32 col.val ↔ col = wordCol w h := by
  have hc := col.isLt
  have hmod : col.val % 2 ^ 32 = col.val := Nat.mod_eq_of_lt (by omega)
  constructor
  · intro e
    apply Fin.ext
    show col.val = w.toNat
    rw [e, BitVec.toNat_ofNat, hmod]
  · intro e
    apply BitVec.eq_of_toNat_eq
    rw [BitVec.toNat_ofNat, hmod, e]
    rfl

/-! ## The two halves of the classes, joined -/

/-- Two halves of `n` class numbers each, the second starting at `n`, run through the `n + n` class numbers once. -/
private theorem sum_halves {M : Type*} [AddCommMonoid M] (f : ℕ → M) (n m : ℕ) (hm : m = n + n) :
    ∑ c : Fin 2, ∑ j ∈ Finset.range n, f (c.val * n + j) = ∑ col : Fin m, f col.val := by
  subst hm
  rw [Fin.sum_univ_two, ← Finset.sum_range f, Finset.sum_range_add]
  simp only [Fin.val_zero, Fin.val_one, zero_mul, zero_add, one_mul]

/-! ## What the two halves gather -/

/-- The two halves together gather, of a row's label logit, the logit at the class its label names. -/
private theorem sp_joined (ff : SBD.Idx → EReal) (W : SCD.Idx → EReal) (lab : SB.Idx → BitVec 32)
    (hl : ∀ i, 0 ≤ (lab i).toInt ∧ (lab i).toInt < 100000) (b : Fin 256) :
    k0 + ∑ c : Fin 2, spPart ff W lab c.val 50000 b = logit ff W b (wordCol (lab (ix1 b)) (hl (ix1 b))) := by
  rw [k0_eq, zero_add]
  unfold spPart
  rw [sum_halves (fun n => pickN ff W lab b n) 50000 100000 (by norm_num)]
  rw [← sum_pick (wordCol (lab (ix1 b)) (hl (ix1 b))) (fun col => logit ff W b col)]
  refine Finset.sum_congr rfl (fun col _ => ?_)
  unfold pickN
  rw [logitN_of_lt ff W b col.isLt]
  by_cases h : col = wordCol (lab (ix1 b)) (hl (ix1 b))
  · rw [if_pos h, if_pos ((word_eq_iff _ (hl (ix1 b)) col).mpr h)]
  · rw [if_neg h, if_neg (fun e => h ((word_eq_iff _ (hl (ix1 b)) col).mp e))]

/-- The two halves together gather every negative term, of every row against every class. -/
private theorem sn_joined (ff : SBD.Idx → EReal) (W : SCD.Idx → EReal) :
    k0 + ∑ c : Fin 2, snPart ff W c.val 50000 = 0 + ∑ b : Fin 256, ∑ col : Fin 100000, negTerm (logit ff W b col) := by
  rw [k0_eq]
  unfold snPart
  rw [sum_halves (fun n => negCol ff W n) 50000 100000 (by norm_num)]
  unfold negCol
  rw [Finset.sum_comm]
  refine congrArg (fun s => (0 : EReal) + s) (Finset.sum_congr rfl (fun b _ => Finset.sum_congr rfl (fun col _ => ?_)))
  rw [logitN_of_lt ff W b col.isLt]

/-- THE BRIDGE between the kernel's loss and the reference's. -/
theorem loss_bridge (ff : SBD.Idx → EReal) (W : SCD.Idx → EReal) (lab : SB.Idx → BitVec 32)
    (hf : ∀ i, ∃ r : ℝ, ff i = (r : EReal)) (hW : ∀ i, ∃ r : ℝ, W i = (r : EReal))
    (hl : ∀ i, 0 ≤ (lab i).toInt ∧ (lab i).toInt < 100000) :
    kerLoss ff W lab = refLoss ff W lab := by
  -- every negative term is a real number
  have hreal : ∀ (b : Fin 256) (col : Fin 100000), ∃ r : ℝ, negTerm (logit ff W b col) = (r : EReal) := by
    intro b col
    obtain ⟨x, hx⟩ := logit_real ff W hf hW b col
    rw [hx]
    exact negTerm_real x
  choose E hE using hreal
  -- the class each row's label names
  let l : Fin 256 → Fin 100000 := fun b => wordCol (lab (ix1 b)) (hl (ix1 b))
  have hsp : ∀ b : Fin 256, k0 + ∑ c : Fin 2, spPart ff W lab c.val 50000 b = logit ff W b (l b) :=
    fun b => sp_joined ff W lab hl b
  -- the label logits agree
  have hg : (fun b : Fin 256 => k0 + ∑ c : Fin 2, spPart ff W lab c.val 50000 b)
      = fun b : Fin 256 => logit ff W b (refCol (lab (ix1 b))) := by
    funext b
    rw [hsp b, refCol_eq _ (hl (ix1 b))]
  -- the negative sums agree
  have hs : (k0 + ∑ c : Fin 2, snPart ff W c.val 50000)
        - (k0 + ∑ b : Fin 256, negTerm (k0 + ∑ c : Fin 2, spPart ff W lab c.val 50000 b))
      = k0 + ∑ b : Fin 256, ∑ col : Fin 100000,
          negTerm (logit ff W b col) * (1 * (1 - (if lab (ix1 b) = BitVec.ofNat 32 col.val then (1 : EReal) else 0))) := by
    rw [sn_joined]
    simp only [hsp]
    simp only [hE]
    rw [k0_eq]
    exact neg_sum_bridge E l (fun b col => if lab (ix1 b) = BitVec.ofNat 32 col.val then (1 : EReal) else 0)
      (fun b col => by
        by_cases h : col = l b
        · rw [if_pos h, if_pos ((word_eq_iff _ (hl (ix1 b)) col).mpr h)]
        · rw [if_neg h, if_neg (fun e => h ((word_eq_iff _ (hl (ix1 b)) col).mp e))])
  unfold kerLoss refLoss
  rw [hg, hs]

end Cert.Circle

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.RefValue.lean ====
/-
  The reference program's result, read back: its one scalar is the reference's loss of the scaled embeddings, the weights
  and the labels.
-/
import proofs.«401017_j79980880986260_3_alg».proof.Defs
import proofs.«401017_j79980880986260_3_alg».proof.Proof.Gen.ReferenceIdeal.Run
import proofs.«401017_j79980880986260_3_alg».proof.Proof.Gen.ReferenceIdeal.Read
import proofs.«401017_j79980880986260_3_alg».proof.Proof.Spec
import proofs.«401017_j79980880986260_3_alg».proof.Proof.LibSums

noncomputable section

open scoped BigOperators

namespace Cert.Circle.Ref

open Cert.ReferenceIdeal Cert.ReferenceIdeal.Gen Idealize.ShloMosaic Idealize.ShloMosaic.TcCoe Idealize.SL.Sem
open Idealize.ShloMosaic.ValueIdx Cert.Circle

section Stages

open Cert.ReferenceIdeal.Read

/-- The scaled embeddings. -/
private theorem v4_eq (emb : S256x512.Idx → EReal) : val_main_v4 (F := Ideal) emb = normalize emb := by
  funext i
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.maximumf_def, Ideal.hostUnary_sqrt_def, Ideal.mulf_def,
    Ideal.ofBits_def]
  unfold normalize
  have hidx : ∀ k : Fin 512, idx_main_call0_v1 (idx_main_call0_v2 (idx_main_v3 i)) k = ix2 (i 0) k := fun k =>
    funext fun a => by
      match a with
      | ⟨0, _⟩ => rfl
      | ⟨1, _⟩ => rfl
  simp only [hidx]
  rfl

/-- The logits. -/
private theorem v6_eq (emb : S256x512.Idx → EReal) (W : S100000x512.Idx → EReal) (b : Fin 256) (col : Fin 100000) :
    val_main_v6 (F := Ideal) emb W (ix2 b col) = logit (normalize emb) W b col := by
  rw [val_main_v6_apply, v4_eq]
  unfold logit
  refine Finset.sum_congr rfl fun k _ => ?_
  rw [val_main_v5_apply]
  have h1 : lidx_main_v6 (ix2 b col) k = ix2 b k := funext fun a => by
    match a with
    | ⟨0, _⟩ => rfl
    | ⟨1, _⟩ => rfl
  have h2 : idx_main_v5 (ridx_main_v6 (ix2 b col) k) = ix2 col k := funext fun a => by
    match a with
    | ⟨0, _⟩ => rfl
    | ⟨1, _⟩ => rfl
  rw [h1, h2]

/-! ## Words -/

/-- A small number's word, read signed, is the number. -/
private theorem toInt_ofNat_small (n : Nat) (h : n < 2147483648) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The select on "the word is negative". -/
private theorem select_slt_zero (w a c : BitVec 32) :
    Scalar.select (IntOp.cmpi .slt w 0#32) a c = if w.toInt < 0 then a else c := by
  unfold Scalar.select IntOp.cmpi
  have hs : w.slt 0#32 = decide (w.toInt < 0) := by simp [BitVec.slt]
  simp only [hs]
  by_cases h : w.toInt < 0
  · rw [if_pos h, decide_eq_true h]; rfl
  · rw [if_neg h, decide_eq_false h]; rfl

/-- The row number, as the reference builds it: never negative, so kept. -/
private theorem v12_at (b : Fin 256) : val_main_v12 (F := Ideal) (ix1 b) = BitVec.ofNat 32 b.val := by
  rw [val_main_v12_apply, val_main_v9_apply, val_main_v7_apply, val_main_v8_apply, val_main_c_apply, select_slt_zero]
  have : ¬ (BitVec.ofNat 32 ((ix1 b : S256.Idx) 0).val).toInt < 0 := by
    rw [toInt_ofNat_small _ (by have := b.isLt; show b.val < _; omega)]; omega
  rw [if_neg this]

private theorem v26_at (b : Fin 256) : val_main_v26 (F := Ideal) (ix1 b) = BitVec.ofNat 32 b.val := by
  rw [val_main_v26_apply, val_main_v23_apply, val_main_v7_apply, val_main_v22_apply, val_main_c_3_apply, select_slt_zero]
  have : ¬ (BitVec.ofNat 32 ((ix1 b : S256.Idx) 0).val).toInt < 0 := by
    rw [toInt_ofNat_small _ (by have := b.isLt; show b.val < _; omega)]; omega
  rw [if_neg this]

/-- The label word, wrapped round when negative. -/
private theorem v17_at (lab : S256.Idx → BitVec 32) (b : Fin 256) :
    val_main_v17 (F := Ideal) lab (ix1 b)
      = if (lab (ix1 b)).toInt < 0 then lab (ix1 b) + 100000#32 else lab (ix1 b) := by
  rw [val_main_v17_apply, val_main_v14_apply, val_main_v16_apply, val_main_v13_apply, val_main_v15_apply,
    val_main_c_1_apply, val_main_c_2_apply, select_slt_zero]
  rfl

private theorem v31_at (lab : S256.Idx → BitVec 32) (b : Fin 256) :
    val_main_v31 (F := Ideal) lab (ix1 b)
      = if (lab (ix1 b)).toInt < 0 then lab (ix1 b) + 100000#32 else lab (ix1 b) := by
  rw [val_main_v31_apply, val_main_v28_apply, val_main_v30_apply, val_main_v27_apply, val_main_v29_apply,
    val_main_c_5_apply, val_main_c_6_apply, select_slt_zero]
  rfl

/-! ## The start indices and the gather -/

/-- The joined start indices at component 0 are the first piece's, at component 1 the second piece's. -/
private theorem concat_at0 (p q : S256x1.Idx → BitVec 32) (b : Fin 256) :
    concatenate S256x2 1 [⟨S256x1, p⟩, ⟨S256x1, q⟩] Facts₀.concatenates_S256x1_S256x1_S256x2_d1 (ix2 b (0 : Fin 2))
      = p (ix2 b (0 : Fin 1)) :=
  concatenate_pair_apply_left (1 : Fin S256x2.rank) p q _ _ rfl (ix2 b (0 : Fin 1)) (fun a => by
    match a with
    | ⟨0, _⟩ => rfl
    | ⟨1, _⟩ => rfl)

private theorem concat_at1 (p q : S256x1.Idx → BitVec 32) (b : Fin 256) :
    concatenate S256x2 1 [⟨S256x1, p⟩, ⟨S256x1, q⟩] Facts₀.concatenates_S256x1_S256x1_S256x2_d1 (ix2 b (1 : Fin 2))
      = q (ix2 b (0 : Fin 1)) :=
  concatenate_pair_apply_right (1 : Fin S256x2.rank) p q _ _ rfl rfl (ix2 b (0 : Fin 1)) (fun a ha => by
    match a with
    | ⟨0, _⟩ => rfl
    | ⟨1, _⟩ => exact absurd rfl ha) rfl

/-- The gather of one element per row: row `b` reads the operand at the two components of its start index, each read
    signed and clamped into its axis. -/
private theorem gather_at (x : S256x100000.Idx → EReal) (idx : S256x2.Idx → BitVec 32) (b : Fin 256) :
    Host.gather gather_S256x100000_S256x2_S256_n_01_n_n_01_1_11 x idx (ix1 b)
      = x (ix2 (⟨min (idx (ix2 b (0 : Fin 2))).toInt.toNat 255, by omega⟩ : Fin 256)
          (⟨min (idx (ix2 b (1 : Fin 2))).toInt.toNat 99999, by omega⟩ : Fin 100000)) := by
  unfold Host.gather
  congr 1
  funext a
  refine Fin.ext ?_
  match a with
  | ⟨0, _⟩ =>
    show gather_S256x100000_S256x2_S256_n_01_n_n_01_1_11.start (ix1 b) idx 0
        + gather_S256x100000_S256x2_S256_n_01_n_n_01_1_11.batchCoord (ix1 b) 0
        + gather_S256x100000_S256x2_S256_n_01_n_n_01_1_11.offCoord (ix1 b) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S256x100000_S256x2_S256_n_01_n_n_01_1_11.startIndexMap by decide)]
    have hsi : gather_S256x100000_S256x2_S256_n_01_n_n_01_1_11.siIdx (ix1 b)
        ⟨List.idxOf (0 : Fin 2) gather_S256x100000_S256x2_S256_n_01_n_n_01_1_11.startIndexMap,
          List.idxOf_lt_length_iff.2 (by decide)⟩ = ix2 b (0 : Fin 2) := by
      funext c; refine Fin.ext ?_
      match c with
      | ⟨0, _⟩ => rfl
      | ⟨1, _⟩ => rfl
    rw [hsi]
    rfl
  | ⟨1, _⟩ =>
    show gather_S256x100000_S256x2_S256_n_01_n_n_01_1_11.start (ix1 b) idx 1
        + gather_S256x100000_S256x2_S256_n_01_n_n_01_1_11.batchCoord (ix1 b) 1
        + gather_S256x100000_S256x2_S256_n_01_n_n_01_1_11.offCoord (ix1 b) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S256x100000_S256x2_S256_n_01_n_n_01_1_11.startIndexMap by decide)]
    have hsi : gather_S256x100000_S256x2_S256_n_01_n_n_01_1_11.siIdx (ix1 b)
        ⟨List.idxOf (1 : Fin 2) gather_S256x100000_S256x2_S256_n_01_n_n_01_1_11.startIndexMap,
          List.idxOf_lt_length_iff.2 (by decide)⟩ = ix2 b (1 : Fin 2) := by
      funext c; refine Fin.ext ?_
      match c with
      | ⟨0, _⟩ => rfl
      | ⟨1, _⟩ => rfl
    rw [hsi]
    rfl

/-- The same, with the row and the class named. -/
private theorem gather_at' (x : S256x100000.Idx → EReal) (idx : S256x2.Idx → BitVec 32) (b r : Fin 256) (c : Fin 100000)
    (hr : r.val = min (idx (ix2 b (0 : Fin 2))).toInt.toNat 255)
    (hc : c.val = min (idx (ix2 b (1 : Fin 2))).toInt.toNat 99999) :
    Host.gather gather_S256x100000_S256x2_S256_n_01_n_n_01_1_11 x idx (ix1 b) = x (ix2 r c) := by
  rw [gather_at]
  have h1 : (⟨min (idx (ix2 b (0 : Fin 2))).toInt.toNat 255, by omega⟩ : Fin 256) = r := Fin.ext hr.symm
  have h2 : (⟨min (idx (ix2 b (1 : Fin 2))).toInt.toNat 99999, by omega⟩ : Fin 100000) = c := Fin.ext hc.symm
  rw [h1, h2]

private theorem clamp_row (b : Fin 256) : b.val = min (BitVec.ofNat 32 b.val).toInt.toNat 255 := by
  have := b.isLt
  rw [toInt_ofNat_small _ (by omega), Int.toNat_natCast]
  omega

/-- The first gather reads, in row `b`, the logit at the class the reference reads for the row's label. -/
private theorem v21_at (lab : S256.Idx → BitVec 32) (emb : S256x512.Idx → EReal) (W : S100000x512.Idx → EReal) (b : Fin 256) :
    val_main_v21 (F := Ideal) lab emb W (ix1 b) = logit (normalize emb) W b (refCol (lab (ix1 b))) := by
  have h18 : idx_main_v18 (ix2 b (0 : Fin 1)) = ix1 b := funext fun a => by
    match a with
    | ⟨0, _⟩ => rfl
  have h19 : idx_main_v19 (ix2 b (0 : Fin 1)) = ix1 b := funext fun a => by
    match a with
    | ⟨0, _⟩ => rfl
  have h0 : b.val = min (val_main_v20 (F := Ideal) lab (ix2 b (0 : Fin 2))).toInt.toNat 255 := by
    unfold val_main_v20
    rw [concat_at0, val_main_v18_apply, h18, v12_at]
    exact clamp_row b
  have h1 : (refCol (lab (ix1 b))).val = min (val_main_v20 (F := Ideal) lab (ix2 b (1 : Fin 2))).toInt.toNat 99999 := by
    unfold val_main_v20
    rw [concat_at1, val_main_v19_apply, h19, v17_at]
    rfl
  unfold val_main_v21
  rw [gather_at' _ _ b b _ h0 h1, v6_eq]

/-- The second gather reads the same. -/
private theorem v35_at (lab : S256.Idx → BitVec 32) (emb : S256x512.Idx → EReal) (W : S100000x512.Idx → EReal) (b : Fin 256) :
    val_main_v35 (F := Ideal) lab emb W (ix1 b) = logit (normalize emb) W b (refCol (lab (ix1 b))) := by
  have h32 : idx_main_v32 (ix2 b (0 : Fin 1)) = ix1 b := funext fun a => by
    match a with
    | ⟨0, _⟩ => rfl
  have h33 : idx_main_v33 (ix2 b (0 : Fin 1)) = ix1 b := funext fun a => by
    match a with
    | ⟨0, _⟩ => rfl
  have h0 : b.val = min (val_main_v34 (F := Ideal) lab (ix2 b (0 : Fin 2))).toInt.toNat 255 := by
    unfold val_main_v34
    rw [concat_at0, val_main_v32_apply, h32, v26_at]
    exact clamp_row b
  have h1 : (refCol (lab (ix1 b))).val = min (val_main_v34 (F := Ideal) lab (ix2 b (1 : Fin 2))).toInt.toNat 99999 := by
    unfold val_main_v34
    rw [concat_at1, val_main_v33_apply, h33, v31_at]
    rfl
  unfold val_main_v35
  rw [gather_at' _ _ b b _ h0 h1, v6_eq]

/-! ## The terms -/

/-- The positive term of row `b`. -/
private theorem v45_at (lab : S256.Idx → BitVec 32) (emb : S256x512.Idx → EReal) (W : S100000x512.Idx → EReal) (b : Fin 256) :
    val_main_v45 (F := Ideal) lab emb W (ix1 b) = posTerm (logit (normalize emb) W b (refCol (lab (ix1 b)))) := by
  rw [val_main_v45_apply, val_main_v44_apply, val_main_v41_apply, val_main_v43_apply, val_main_v39_apply,
    val_main_v37_apply, val_main_v40_apply, val_main_v42_apply, val_main_v36_apply, val_main_v38_apply,
    val_main_cst_7_apply, val_main_cst_8_apply, val_main_cst_9_apply, val_main_cst_10_apply, v21_at, v35_at]
  rfl

/-- A small number's word is not below zero, read signed. -/
private theorem sge_zero_ofNat (n : Nat) (h : n < 2147483648) : IntOp.cmpi .sge (BitVec.ofNat 32 n) 0#32 = 1#1 := by
  unfold IntOp.cmpi
  have hs : (0#32).sle (BitVec.ofNat 32 n) = true := by
    have h0 : (0#32 : BitVec 32).toInt = 0 := by decide
    unfold BitVec.sle
    rw [h0, toInt_ofNat_small n h]
    exact decide_eq_true (by omega)
  simp only [hs]
  rfl

/-- The row mask is one on every row. -/
private theorem v49_at (j : S256x1.Idx) : val_main_v49 (F := Ideal) j = 1 := by
  rw [val_main_v49_apply, val_main_v48_apply, val_main_v46_apply, val_main_v47_apply, val_main_c_11_apply, val_main_v7_apply]
  have hlt : ((idx_main_v46 j) 0).val < 256 := ((idx_main_v46 j) 0).isLt
  rw [sge_zero_ofNat _ (by omega)]
  show (((1#1 : BitVec 1).toNat : ℝ) : EReal) = 1
  simp

/-- The one-hot array at a row and a class: one where the class number's word is the row's label word. -/
private theorem v50_at (lab : S256.Idx → BitVec 32) (b : Fin 256) (col : Fin 100000) :
    val_main_v50 (F := Ideal) lab (ix2 b col) = if lab (ix1 b) = BitVec.ofNat 32 col.val then (1 : EReal) else 0 := by
  rw [val_main_v50_apply, val_main_call1_v4_apply, val_main_call1_v2_apply, val_main_call1_v3_apply,
    val_main_call1_v0_apply, val_main_call1_v1_apply]
  have h1 : idx_main_call1_v0 (idx_main_call1_v2 (ix2 b col)) = ix1 b := funext fun a => by
    match a with
    | ⟨0, _⟩ => rfl
  rw [h1]
  show FloatOps.uitofp (F := Ideal) .f32 (IntOp.cmpi .eq (lab (ix1 b)) (BitVec.ofNat 32 col.val)) = _
  unfold IntOp.cmpi
  by_cases h : lab (ix1 b) = BitVec.ofNat 32 col.val
  · rw [if_pos h]
    have : (lab (ix1 b) == BitVec.ofNat 32 col.val) = true := by rw [h]; simp
    simp only [this]
    show (((1#1 : BitVec 1).toNat : ℝ) : EReal) = 1
    simp
  · rw [if_neg h]
    have : (lab (ix1 b) == BitVec.ofNat 32 col.val) = false := by simpa using h
    simp only [this]
    show (((0#1 : BitVec 1).toNat : ℝ) : EReal) = 0
    simp

/-- The masked negative term at a row and a class. -/
private theorem v65_at (lab : S256.Idx → BitVec 32) (emb : S256x512.Idx → EReal) (W : S100000x512.Idx → EReal) (b : Fin 256)
    (col : Fin 100000) :
    val_main_v65 (F := Ideal) lab emb W (ix2 b col)
      = negTerm (logit (normalize emb) W b col)
          * (1 * (1 - (if lab (ix1 b) = BitVec.ofNat 32 col.val then (1 : EReal) else 0))) := by
  rw [val_main_v65_apply, val_main_v64_apply, val_main_v63_apply, val_main_v60_apply, val_main_v62_apply,
    val_main_v58_apply, val_main_v56_apply, val_main_v59_apply, val_main_v61_apply, val_main_v55_apply,
    val_main_v57_apply, val_main_cst_13_apply, val_main_cst_14_apply, val_main_cst_15_apply, val_main_cst_16_apply,
    val_main_v54_apply, val_main_v53_apply, val_main_v52_apply, val_main_v51_apply, val_main_cst_12_apply,
    v49_at, v50_at, v6_eq]
  have hk1 : (FloatOps.ofBits (F := Ideal) .f32 0x3F800000#32) = 1 := k1_eq
  rw [hk1]
  rfl

/-! ## The result -/

/-- The program's scalar is the reference's loss of the scaled embeddings, the weights and the labels. -/
private theorem value_eq (lab : S256.Idx → BitVec 32) (emb : S256x512.Idx → EReal) (W : S100000x512.Idx → EReal) (i : S_.Idx) :
    val_main_v70 (F := Ideal) lab emb W i = refLoss (normalize emb) W lab := by
  rw [val_main_v70_apply, val_main_v69_apply, val_main_v68_apply, val_main_v66_apply, val_main_v67_apply,
    val_main_cst_19_apply, val_main_cst_17_apply, val_main_cst_18_apply, sum_idx2, LibSums.sum_idx1]
  simp only [v65_at, v45_at]
  unfold refLoss loss
  simp only [Ideal.hostUnary_log_def, Ideal.addf_def, Ideal.mulf_def, Ideal.ofBits_def]

end Stages

/-- Every weakly fair execution of the reference ends with its result at `refLoss` of the arguments, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
          = (fun _ => refLoss (normalize (m ((c.tc : Thread nD τ).loc main_arg2))) (m ((c.tc : Thread nD τ).loc main_arg3))
              (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩)
    (Cert.ReferenceIdeal.Value.run (F := Ideal) m ρ)
  rw [Read.val_main_v70_eq]
  funext i
  exact value_eq _ _ _ i

end Cert.Circle.Ref

end
-- ==== Proof.KDefs.lean ====
/-
  The kernel body's two accumulations as functions of what it loads: the running label-logit column and the running
  total of the negative terms, each after the five chunks of a tile, from the scaled embeddings `x0`, the tile of weight
  rows `x1`, the label column `x2` and the value carried in.
-/
import proofs.«401017_j79980880986260_3_alg».proof.Proof.Gen.KernelIdeal.Skeleton
import Idealize.ShloMosaic.Lib.Pipeline.Value
import Idealize.ShloMosaic.Lib.ValueIdx

noncomputable section

namespace Cert.Circle.K

open Cert.KernelIdeal Cert.KernelIdeal.Gen Idealize.ShloMosaic

variable {F : FTy → Type} [FloatOps F]

/-- The word of the first class number of the tile at grid point `i`: `(i₀ · 10 + i₁) · 5000`. -/
def tileBase (i : grid0.Coords) : BitVec 32 :=
  Scalar.muli (Scalar.addi (Scalar.muli (BitVec.ofNat 32 (i 0).val) 10#32) (BitVec.ofNat 32 (i 1).val)) 5000#32

/-- A thousand rows fit in the tile from row `off ≤ 4000` on. -/
theorem inbRows (off : ℕ) (h : off ≤ 4000) : ∀ a, (![off, 0] : Fin 2 → ℕ) a + S1000x512.size a ≤ S5000x512.size a := by
  intro a
  match a with
  | ⟨0, _⟩ => show off + 1000 ≤ 5000; omega
  | ⟨1, _⟩ => show 0 + 512 ≤ 512; omega

/-- The thousand rows of the tile from row `off` on. -/
def wRows (x1 : Vec F S5000x512 .f32) (off : ℕ) (h : off ≤ 4000) : Vec F S1000x512 .f32 :=
  View.ld x1 (Rect.unit (s := S5000x512) ![off, 0] S1000x512.size (inbRows off h))

/-- The label-logit column after the tile's five chunks, from the column `acc` carried in. -/
def spAfter (i : grid0.Coords) (x0 : Vec F S256x512 .bf16) (x1 : Vec F S5000x512 .f32) (x2 : Vec F S256x1 .i32)
    (acc : Vec F S256x1 .f32) : FVec F S256x1 .f32 :=
  k0_pay1
    (k0_pay22 (k0_pay7 x0) (k0_pay8 x2) (tileBase i)
      (k0_pay16 (k0_pay7 x0) (k0_pay8 x2) (tileBase i)
        (k0_pay13 (k0_pay7 x0) (k0_pay8 x2) (tileBase i)
          (k0_pay10 i x0 x2 acc (wRows x1 0 (by omega)))
          (wRows x1 1000 (by omega)))
        (2000#32)
        (wRows x1 2000 (by omega)))
      (k0_pay18 (k0_pay7 x0) (wRows x1 3000 (by omega)))
      (k0_pay19 (k0_pay8 x2) (tileBase i))
      (FloatOps.ofBits .f32 0#32)
      (wRows x1 4000 (by omega)))

/-- The total of the negative terms after the tile's five chunks, from the total `acc` carried in. -/
def snAfter (x0 : Vec F S256x512 .bf16) (x1 : Vec F S5000x512 .f32) (acc : Vec F S1x1 .f32) : FVec F S1x1 .f32 :=
  k0_pay2
    (k0_pay20
      (k0_pay17 (k0_pay7 x0)
        (k0_pay14 (k0_pay7 x0) acc (k0_pay9 x0 (wRows x1 0 (by omega))) (k0_pay11 x0 (wRows x1 0 (by omega)))
          (wRows x1 1000 (by omega)))
        (wRows x1 2000 (by omega)))
      (k0_pay18 (k0_pay7 x0) (wRows x1 3000 (by omega))))
    (k0_pay21 (k0_pay7 x0) (wRows x1 4000 (by omega)))
    (k0_pay23 (k0_pay7 x0) (wRows x1 4000 (by omega)))

/-- The number of the tile at grid point `i`. -/
def tileNo (i : grid0.Coords) : ℕ := (i 0).val * 10 + (i 1).val

/-- Row `j` of a tile of weight rows, zero beyond the tile. -/
def rowN (x1 : S5000x512.Idx → EReal) (j : ℕ) (d : Fin 512) : EReal :=
  if h : j < 5000 then x1 (ValueIdx.ix2 ⟨j, h⟩ d) else 0

end Cert.Circle.K

end
-- ==== Proof.KPieces.lean ====
/-
  What each control case of the kernel body leaves in the two carried accumulators and in the two result blocks, as the
  tile functions of what the body loads: the first tile of a half starts from zeros, the later tiles from what the tile
  before left, and the last tile of a half also lays the two accumulators out across the result blocks.
-/
import proofs.«401017_j79980880986260_3_alg».proof.Proof.Gen.KernelIdeal.Frame
import proofs.«401017_j79980880986260_3_alg».proof.Proof.KDefs
import Idealize.ShloMosaic.Lib.Pipeline.Value

set_option maxRecDepth 16384

noncomputable section

namespace Cert.Circle.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

theorem hz2 : (![0, 0] : Fin 2 → ℕ) = fun _ => 0 := by funext a; fin_cases a <;> rfl

/-! ## The first tile of a half: the accumulators are zeroed, then the tile is added -/

theorem sp_A (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : cond0_0 i) (hc1 : ¬cond0_1 i) (x0 : Vec F S256x512 .bf16) (x1 : Vec F S5000x512 .f32) (x2 : Vec F S256x1 .i32) :
    sout0_A_0 c i arg2 harg2 arg3 harg3 arg4 harg4 arg5 harg5 arg6 harg6 arg7 harg7 arg8 harg8 hc0 hc1 x0 x1 x2 = spAfter i x0 x1 x2 k0_pay5 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x1) hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2,
    View.readCov_unit_zero (S := S256x1) _ hz2, View.readCov_unit_zero (S := S1x1) _ hz2]
  rfl

theorem sn_A (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : cond0_0 i) (hc1 : ¬cond0_1 i) (x0 : Vec F S256x512 .bf16) (x1 : Vec F S5000x512 .f32) (x2 : Vec F S256x1 .i32) :
    sout0_A_1 c i arg2 harg2 arg3 harg3 arg4 harg4 arg5 harg5 arg6 harg6 arg7 harg7 arg8 harg8 hc0 hc1 x0 x1 x2 = snAfter x0 x1 k0_pay6 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2,
    View.readCov_unit_zero (S := S256x1) _ hz2, View.readCov_unit_zero (S := S1x1) _ hz2]
  rfl

/-! ## A middle tile: the tile is added to what the tile before left -/

theorem sp_B (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : ¬cond0_1 i) (x0 : Vec F S256x512 .bf16) (x1 : Vec F S5000x512 .f32) (x2 : Vec F S256x1 .i32) (xs0 : Vec F S256x1 .f32) (xs1 : Vec F S1x1 .f32) :
    sout0_B_0 c i arg2 harg2 arg3 harg3 arg4 harg4 arg5 harg5 arg6 harg6 arg7 harg7 arg8 harg8 hc0 hc1 x0 x1 x2 xs0 xs1 = spAfter i x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2]
  rfl

theorem sn_B (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : ¬cond0_1 i) (x0 : Vec F S256x512 .bf16) (x1 : Vec F S5000x512 .f32) (x2 : Vec F S256x1 .i32) (xs0 : Vec F S256x1 .f32) (xs1 : Vec F S1x1 .f32) :
    sout0_B_1 c i arg2 harg2 arg3 harg3 arg4 harg4 arg5 harg5 arg6 harg6 arg7 harg7 arg8 harg8 hc0 hc1 x0 x1 x2 xs0 xs1 = snAfter x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2]
  rfl

/-! ## The last tile of a half: the tile is added, and the accumulators are laid out across the result blocks -/

theorem sp_C (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : cond0_1 i) (x0 : Vec F S256x512 .bf16) (x1 : Vec F S5000x512 .f32) (x2 : Vec F S256x1 .i32) (xs0 : Vec F S256x1 .f32) (xs1 : Vec F S1x1 .f32) :
    sout0_C_0 c i arg2 harg2 arg3 harg3 arg4 harg4 arg5 harg5 arg6 harg6 arg7 harg7 arg8 harg8 hc0 hc1 x0 x1 x2 xs0 xs1 = spAfter i x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2]
  rfl

theorem sn_C (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : cond0_1 i) (x0 : Vec F S256x512 .bf16) (x1 : Vec F S5000x512 .f32) (x2 : Vec F S256x1 .i32) (xs0 : Vec F S256x1 .f32) (xs1 : Vec F S1x1 .f32) :
    sout0_C_1 c i arg2 harg2 arg3 harg3 arg4 harg4 arg5 harg5 arg6 harg6 arg7 harg7 arg8 harg8 hc0 hc1 x0 x1 x2 xs0 xs1 = snAfter x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2]
  rfl

theorem out3_C (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : cond0_1 i) (x0 : Vec F S256x512 .bf16) (x1 : Vec F S5000x512 .f32) (x2 : Vec F S256x1 .i32) (xs0 : Vec F S256x1 .f32) (xs1 : Vec F S1x1 .f32) :
    out0_C_3 c i arg2 harg2 arg3 harg3 arg4 harg4 arg5 harg5 arg6 harg6 arg7 harg7 arg8 harg8 hc0 hc1 x0 x1 x2 xs0 xs1 = k0_pay3 (spAfter i x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2,
    View.readCov_unit_zero (S := S256x1) _ hz2, View.readCov_unit_zero (S := S1x1) _ hz2]
  rfl

theorem out4_C (c : Dev nD) (i : grid0.Coords) (arg2 : Memref sig .tc .vmem S256x512 .bf16) (harg2 : arg2.IsWhole) (arg3 : Memref sig .tc .vmem S5000x512 .f32) (harg3 : arg3.IsWhole) (arg4 : Memref sig .tc .vmem S256x1 .i32) (harg4 : arg4.IsWhole) (arg5 : Memref sig .tc .vmem S256x128 .f32) (harg5 : arg5.IsWhole) (arg6 : Memref sig .tc .vmem S8x128 .f32) (harg6 : arg6.IsWhole) (arg7 : Memref sig .tc .vmem S256x1 .f32) (harg7 : arg7.IsWhole) (arg8 : Memref sig .tc .vmem S1x1 .f32) (harg8 : arg8.IsWhole) (hc0 : ¬cond0_0 i) (hc1 : cond0_1 i) (x0 : Vec F S256x512 .bf16) (x1 : Vec F S5000x512 .f32) (x2 : Vec F S256x1 .i32) (xs0 : Vec F S256x1 .f32) (xs1 : Vec F S1x1 .f32) :
    out0_C_4 c i arg2 harg2 arg3 harg3 arg4 harg4 arg5 harg5 arg6 harg6 arg7 harg7 arg8 harg8 hc0 hc1 x0 x1 x2 xs0 xs1 = k0_pay4 (snAfter x0 x1 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread,
    View.ld_unit_zero (S := S256x512) hz2, View.ld_unit_zero (S := S256x1) hz2, View.ld_unit_zero (S := S1x1) hz2,
    View.readCov_unit_zero (S := S256x1) _ hz2, View.readCov_unit_zero (S := S1x1) _ hz2]
  rfl

end Cert.Circle.K

end
-- ==== Proof.KParts.lean ====
/-
  How the partial sums of a half of the classes grow by one tile of 5000 classes: the classes of half `c` after its first
  `k` tiles are the class numbers `c · 50000 + j` for `j < k · 5000`, and tile `c · 10 + k` adds the class numbers
  `(c · 10 + k) · 5000 + j` for `j < 5000`.
-/
import proofs.«401017_j79980880986260_3_alg».proof.Proof.Spec

noncomputable section

open scoped BigOperators

namespace Cert.Circle

open Idealize.ShloMosaic Idealize.ShloMosaic.ValueIdx

/-- A sum over the first `a + n` naturals is the sum over the first `a` plus the sum over the next `n`. -/
theorem sum_range_add' {M : Type*} [AddCommMonoid M] (f : ℕ → M) (a n : ℕ) :
    ∑ x ∈ Finset.range (a + n), f x = ∑ x ∈ Finset.range a, f x + ∑ x ∈ Finset.range n, f (a + x) := by
  induction n with
  | zero => simp
  | succ n ih => rw [← Nat.add_assoc, Finset.sum_range_succ, ih, Finset.sum_range_succ, add_assoc]

theorem spPart_zero (ff : SBD.Idx → EReal) (W : SCD.Idx → EReal) (lab : SB.Idx → BitVec 32) (c : ℕ) (b : Fin 256) :
    spPart ff W lab c 0 b = 0 := by
  unfold spPart; rw [Finset.range_zero, Finset.sum_empty]

theorem snPart_zero (ff : SBD.Idx → EReal) (W : SCD.Idx → EReal) (c : ℕ) : snPart ff W c 0 = 0 := by
  unfold snPart; rw [Finset.range_zero, Finset.sum_empty]

/-- Tile `t = c · 10 + k` takes the label-logit gathering of half `c` from `k` tiles to `k + 1`. -/
theorem spPart_step (ff : SBD.Idx → EReal) (W : SCD.Idx → EReal) (lab : SB.Idx → BitVec 32) (t c k : ℕ)
    (ht : t = c * 10 + k) (b : Fin 256) :
    spPart ff W lab c (k * 5000) b + ∑ j ∈ Finset.range 5000, pickN ff W lab b (t * 5000 + j)
      = spPart ff W lab c ((k + 1) * 5000) b := by
  unfold spPart
  rw [show (k + 1) * 5000 = k * 5000 + 5000 by omega, sum_range_add']
  refine congrArg _ (Finset.sum_congr rfl fun j _ => ?_)
  rw [show t * 5000 + j = c * 50000 + (k * 5000 + j) by omega]

/-- Tile `t = c · 10 + k` takes the negative total of half `c` from `k` tiles to `k + 1`. -/
theorem snPart_step (ff : SBD.Idx → EReal) (W : SCD.Idx → EReal) (t c k : ℕ) (ht : t = c * 10 + k) :
    snPart ff W c (k * 5000) + ∑ j ∈ Finset.range 5000, negCol ff W (t * 5000 + j) = snPart ff W c ((k + 1) * 5000) := by
  unfold snPart
  rw [show (k + 1) * 5000 = k * 5000 + 5000 by omega, sum_range_add']
  refine congrArg _ (Finset.sum_congr rfl fun j _ => ?_)
  rw [show t * 5000 + j = c * 50000 + (k * 5000 + j) by omega]

end Cert.Circle

end
-- ==== Proof.KInv.lean ====
/-
  What the two carried accumulators hold after each grid point, by induction on the point. Grid point `n` is tile
  `n` of the classes (5000 weight rows), in half `n / 10`, the `n % 10`-th tile of that half. After it, row `b` of the
  first accumulator holds the label logit gathered from the half's first `n % 10 + 1` tiles, and the second accumulator
  the negative terms of those tiles. At the last tile of a half the two are also laid out across the result blocks.
-/
import proofs.«401017_j79980880986260_3_alg».proof.Proof.Gen.KernelIdeal.Frame
import proofs.«401017_j79980880986260_3_alg».proof.Proof.KDefs
import Idealize.ShloMosaic.Lib.Pipeline.Value
import proofs.«401017_j79980880986260_3_alg».proof.Proof.KPieces
import proofs.«401017_j79980880986260_3_alg».proof.Proof.KParts
import proofs.«401017_j79980880986260_3_alg».proof.Proof.Spec
import Idealize.ShloMosaic.Lib.ValueIdx
import Idealize.ShloMosaic.Lib.ValueLayout
set_option maxRecDepth 16384

noncomputable section

namespace Cert.Circle.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx Cert.Circle
open scoped BigOperators

/-- The tile law of the label-logit column, as a statement (proved elsewhere). -/
def SpStep : Prop :=
  ∀ (i : grid0.Coords) (x0 : S256x512.Idx → EReal) (x1 : S5000x512.Idx → EReal) (x2 : S256x1.Idx → BitVec 32)
    (acc : S256x1.Idx → EReal) (b : Fin 256) (u : Fin 1),
    spAfter (F := Ideal) i x0 x1 x2 acc (ix2 b u)
      = acc (ix2 b u) + ∑ j ∈ Finset.range 5000,
          (if x2 (ix2 b (0 : Fin 1)) = BitVec.ofNat 32 (tileNo i * 5000 + j)
            then ∑ d : Fin 512, x0 (ix2 b d) * rowN x1 j d else 0)

/-- The tile law of the negative total, as a statement (proved elsewhere). -/
def SnStep : Prop :=
  ∀ (x0 : S256x512.Idx → EReal) (x1 : S5000x512.Idx → EReal) (acc : S1x1.Idx → EReal) (u v : Fin 1),
    snAfter (F := Ideal) x0 x1 acc (ix2 u v)
      = acc (ix2 u v) + ∑ j ∈ Finset.range 5000, ∑ b : Fin 256, negTerm (∑ d : Fin 512, x0 (ix2 b d) * rowN x1 j d)

variable (m : (ℓ : Loc nD τ sig) → Buf (Elt Ideal) ℓ)

/-- The scaled embeddings, the weights and the labels as the region finds them. -/
abbrev ffA (c : Dev nD) : S256x512.Idx → EReal := V m c main_v5
abbrev WA (c : Dev nD) : S100000x512.Idx → EReal := V m c main_arg3
abbrev labA (c : Dev nD) : S256.Idx → BitVec 32 := fun i => (V m c main_v6 : S256x1.Idx → BitVec 32) (ix2 (i 0) (0 : Fin 1))

/-- The three input blocks at a grid point, at their literal types. -/
abbrev xb0 (c : Dev nD) (t : Fin cfg0.N) : S256x512.Idx → EReal := iblk m c 0 t
abbrev xb1 (c : Dev nD) (t : Fin cfg0.N) : S5000x512.Idx → EReal := iblk m c 1 t
abbrev xb2 (c : Dev nD) (t : Fin cfg0.N) : S256x1.Idx → BitVec 32 := iblk m c 2 t

/-! ## The input blocks: the embeddings and the labels whole, the weights tile by tile -/

theorem blk0 (c : Dev nD) (t : Fin cfg0.N) (y : S256x512.Idx) : xb0 m c t y = ffA m c y := by
  have hi : ∀ t : Fin grid0.N, win0_0.index t 0 = 0 ∧ win0_0.index t 1 = 0 := by decide +kernel
  unfold xb0 ffA iblk
  rw [View.read_apply]
  show V m c main_v5 _ = V m c main_v5 _
  congr 1
  funext a
  apply Fin.ext
  match a with
  | ⟨0, _⟩ => show win0_0.index t 0 * 256 + 1 * (y 0).val = (y 0).val; rw [(hi t).1]; omega
  | ⟨1, _⟩ => show win0_0.index t 1 * 512 + 1 * (y 1).val = (y 1).val; rw [(hi t).2]; omega

theorem blk1 (c : Dev nD) (t : Fin cfg0.N) (r : Fin 5000) (d : Fin 512) (h : t.val * 5000 + r.val < 100000) :
    xb1 m c t (ix2 r d) = WA m c (ix2 ⟨t.val * 5000 + r.val, h⟩ d) := by
  have hi : ∀ t : Fin grid0.N, win0_1.index t 0 = t.val ∧ win0_1.index t 1 = 0 := by decide +kernel
  unfold xb1 WA iblk
  rw [View.read_apply]
  show V m c main_arg3 _ = V m c main_arg3 _
  congr 1
  funext a
  apply Fin.ext
  match a with
  | ⟨0, _⟩ => show win0_1.index t 0 * 5000 + 1 * r.val = t.val * 5000 + r.val; rw [(hi t).1]; omega
  | ⟨1, _⟩ => show win0_1.index t 1 * 512 + 1 * d.val = d.val; rw [(hi t).2]; omega

theorem blk2 (c : Dev nD) (t : Fin cfg0.N) (y : S256x1.Idx) : xb2 m c t y = (V m c main_v6 : S256x1.Idx → BitVec 32) y := by
  have hi : ∀ t : Fin grid0.N, win0_2.index t 0 = 0 ∧ win0_2.index t 1 = 0 := by decide +kernel
  unfold xb2 iblk
  rw [View.read_apply]
  show V m c main_v6 _ = V m c main_v6 _
  congr 1
  funext a
  apply Fin.ext
  match a with
  | ⟨0, _⟩ => show win0_2.index t 0 * 256 + 1 * (y 0).val = (y 0).val; rw [(hi t).1]; omega
  | ⟨1, _⟩ => show win0_2.index t 1 * 1 + 1 * (y 1).val = (y 1).val; rw [(hi t).2]; omega

theorem tileNo_coords : ∀ t : Fin grid0.N, tileNo (grid0.coords t) = t.val := by decide +kernel

/-- Row `j` of the tile at grid point `t` is the weight row of class number `t · 5000 + j`. -/
theorem rowN_blk (c : Dev nD) (t : Fin cfg0.N) (j : ℕ) (hj : j < 5000) (d : Fin 512) :
    rowN (xb1 m c t) j d = Wn (WA m c) (t.val * 5000 + j) d := by
  have hN : t.val < 20 := lt_of_lt_of_eq t.isLt (show cfg0.N = 20 from N_0)
  have h : t.val * 5000 + j < 100000 := by omega
  unfold rowN Wn
  rw [dif_pos hj, dif_pos h]
  exact blk1 m c t ⟨j, hj⟩ d h

/-! ## One tile, in the program's own arrays -/

/-- The label-logit column gains, at tile `t`, the label-picked logits of the class numbers `t · 5000 + j`. -/
theorem tile_sp (hsp : SpStep) (c : Dev nD) (t : Fin cfg0.N) (acc : S256x1.Idx → EReal) (b : Fin 256) (u : Fin 1) :
    spAfter (F := Ideal) (grid0.coords t) (xb0 m c t) (xb1 m c t) (xb2 m c t) acc (ix2 b u)
      = acc (ix2 b u) + ∑ j ∈ Finset.range 5000, pickN (ffA m c) (WA m c) (labA m c) b (t.val * 5000 + j) := by
  rw [hsp]
  refine congrArg _ (Finset.sum_congr rfl fun j hj => ?_)
  have hj' : j < 5000 := Finset.mem_range.mp hj
  rw [tileNo_coords t, blk2 m c t]
  unfold pickN logitN
  show (if (V m c main_v6 : S256x1.Idx → BitVec 32) (ix2 b 0) = _ then _ else _) = if labA m c (ix1 b) = _ then _ else _
  refine if_congr Iff.rfl (Finset.sum_congr rfl fun d _ => ?_) rfl
  rw [blk0 m c t, rowN_blk m c t j hj' d]

/-- The negative total gains, at tile `t`, the negative terms of the class numbers `t · 5000 + j`. -/
theorem tile_sn (hsn : SnStep) (c : Dev nD) (t : Fin cfg0.N) (acc : S1x1.Idx → EReal) (u v : Fin 1) :
    snAfter (F := Ideal) (xb0 m c t) (xb1 m c t) acc (ix2 u v)
      = acc (ix2 u v) + ∑ j ∈ Finset.range 5000, negCol (ffA m c) (WA m c) (t.val * 5000 + j) := by
  rw [hsn]
  refine congrArg _ (Finset.sum_congr rfl fun j hj => ?_)
  have hj' : j < 5000 := Finset.mem_range.mp hj
  unfold negCol logitN
  refine Finset.sum_congr rfl fun b _ => congrArg negTerm (Finset.sum_congr rfl fun d _ => ?_)
  rw [blk0 m c t, rowN_blk m c t j hj' d]

/-! ## The accumulators start a half from zeros -/

theorem pay5_apply (y : S256x1.Idx) : (k0_pay5 (F := Ideal) : S256x1.Idx → EReal) y = 0 := by
  unfold k0_pay5
  rw [shapeCast_self]
  exact Ideal.ofBits_zero_f32

theorem pay6_apply (y : S1x1.Idx) : (k0_pay6 (F := Ideal) : S1x1.Idx → EReal) y = 0 := by
  unfold k0_pay6
  rw [shapeCast_self]
  exact Ideal.ofBits_zero_f32

/-! ## The invariant, point by point -/

/-- What the two accumulators hold after grid point `n`: the half's gatherings over its first `n % 10 + 1` tiles. -/
def InvAt (c : Dev nD) (n : ℕ) (h : n < cfg0.N) : Prop :=
  (∀ (b : Fin 256) (u : Fin 1), ((outsAt0 m c n h).2.2.1 : S256x1.Idx → EReal) (ix2 b u)
      = spPart (ffA m c) (WA m c) (labA m c) (n / 10) ((n % 10 + 1) * 5000) b)
  ∧ (∀ (u v : Fin 1), ((outsAt0 m c n h).2.2.2 : S1x1.Idx → EReal) (ix2 u v)
      = snPart (ffA m c) (WA m c) (n / 10) ((n % 10 + 1) * 5000))

/-- What the point before left in the two accumulators. -/
abbrev prev0 (c : Dev nD) (t : Fin cfg0.N) : S256x1.Idx → EReal :=
  (outsAt0 m c (t.val - 1) (Nat.lt_of_le_of_lt (Nat.sub_le _ _) t.isLt)).2.2.1
abbrev prev1 (c : Dev nD) (t : Fin cfg0.N) : S1x1.Idx → EReal :=
  (outsAt0 m c (t.val - 1) (Nat.lt_of_le_of_lt (Nat.sub_le _ _) t.isLt)).2.2.2

/-- The first tile of a half. -/
theorem inv_A (hsp : SpStep) (hsn : SnStep) (c : Dev nD) (t : Fin cfg0.N) (h0 : t.val % 10 = 0) (h1 : ¬t.val % 10 = 9) :
    InvAt m c t.val t.isLt := by
  have hA := outsAt0_A m c t h0 h1
  have ht : t.val = t.val / 10 * 10 + 0 := by omega
  constructor
  · intro b u
    rw [hA]
    dsimp only
    refine (congrFun (sp_A (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      ((hcond0_0 t).mpr h0) (fun h => h1 ((hcond0_1 t).mp h)) (iblk m c 0 t) (iblk m c 1 t) (iblk m c 2 t)) (ix2 b u)).trans ?_
    refine (tile_sp m hsp c t (k0_pay5 (F := Ideal)) b u).trans ?_
    rw [pay5_apply, h0]
    have hs := spPart_step (ffA m c) (WA m c) (labA m c) t.val (t.val / 10) 0 ht b
    rw [Nat.zero_mul, spPart_zero] at hs
    exact hs
  · intro u v
    rw [hA]
    dsimp only
    refine (congrFun (sn_A (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      ((hcond0_0 t).mpr h0) (fun h => h1 ((hcond0_1 t).mp h)) (iblk m c 0 t) (iblk m c 1 t) (iblk m c 2 t)) (ix2 u v)).trans ?_
    refine (tile_sn m hsn c t (k0_pay6 (F := Ideal)) u v).trans ?_
    rw [pay6_apply, h0]
    have hs := snPart_step (ffA m c) (WA m c) t.val (t.val / 10) 0 ht
    rw [Nat.zero_mul, snPart_zero] at hs
    exact hs

/-- A middle tile, from the invariant at the point before. -/
theorem inv_B (hsp : SpStep) (hsn : SnStep) (c : Dev nD) (t : Fin cfg0.N) (h0 : ¬t.val % 10 = 0) (h1 : ¬t.val % 10 = 9)
    (ih : InvAt m c (t.val - 1) (Nat.lt_of_le_of_lt (Nat.sub_le _ _) t.isLt)) : InvAt m c t.val t.isLt := by
  have hB := outsAt0_B m c t h0 h1
  have ht : t.val = t.val / 10 * 10 + t.val % 10 := by omega
  have hd : (t.val - 1) / 10 = t.val / 10 := by omega
  have hm : (t.val - 1) % 10 + 1 = t.val % 10 := by omega
  constructor
  · intro b u
    rw [hB]
    dsimp only
    refine (congrFun (sp_B (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) (fun h => h1 ((hcond0_1 t).mp h)) (iblk m c 0 t) (iblk m c 1 t) (iblk m c 2 t)
      (prev0 m c t) (prev1 m c t)) (ix2 b u)).trans ?_
    refine (tile_sp m hsp c t (prev0 m c t) b u).trans ?_
    rw [show prev0 m c t (ix2 b u) = _ from ih.1 b u, hd, hm]
    exact spPart_step (ffA m c) (WA m c) (labA m c) t.val (t.val / 10) (t.val % 10) ht b
  · intro u v
    rw [hB]
    dsimp only
    refine (congrFun (sn_B (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) (fun h => h1 ((hcond0_1 t).mp h)) (iblk m c 0 t) (iblk m c 1 t) (iblk m c 2 t)
      (prev0 m c t) (prev1 m c t)) (ix2 u v)).trans ?_
    refine (tile_sn m hsn c t (prev1 m c t) u v).trans ?_
    rw [show prev1 m c t (ix2 u v) = _ from ih.2 u v, hd, hm]
    exact snPart_step (ffA m c) (WA m c) t.val (t.val / 10) (t.val % 10) ht

/-- The last tile of a half, from the invariant at the point before. -/
theorem inv_C (hsp : SpStep) (hsn : SnStep) (c : Dev nD) (t : Fin cfg0.N) (h0 : ¬t.val % 10 = 0) (h1 : t.val % 10 = 9)
    (ih : InvAt m c (t.val - 1) (Nat.lt_of_le_of_lt (Nat.sub_le _ _) t.isLt)) : InvAt m c t.val t.isLt := by
  have hC := outsAt0_C m c t h0 h1
  have ht : t.val = t.val / 10 * 10 + t.val % 10 := by omega
  have hd : (t.val - 1) / 10 = t.val / 10 := by omega
  have hm : (t.val - 1) % 10 + 1 = t.val % 10 := by omega
  constructor
  · intro b u
    rw [hC]
    dsimp only
    refine (congrFun (sp_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 b u)).trans ?_
    refine (tile_sp m hsp c t (prev0 m c t) b u).trans ?_
    rw [show prev0 m c t (ix2 b u) = _ from ih.1 b u, hd, hm]
    exact spPart_step (ffA m c) (WA m c) (labA m c) t.val (t.val / 10) (t.val % 10) ht b
  · intro u v
    rw [hC]
    dsimp only
    refine (congrFun (sn_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 u v)).trans ?_
    refine (tile_sn m hsn c t (prev1 m c t) u v).trans ?_
    rw [show prev1 m c t (ix2 u v) = _ from ih.2 u v, hd, hm]
    exact snPart_step (ffA m c) (WA m c) t.val (t.val / 10) (t.val % 10) ht

/-- THE INVARIANT at every grid point, by induction on the point. -/
theorem inv (hsp : SpStep) (hsn : SnStep) (c : Dev nD) : ∀ (n : ℕ) (h : n < cfg0.N), InvAt m c n h
  | 0, h => inv_A m hsp hsn c ⟨0, h⟩ rfl (by show ¬(0 % 10 = 9); decide)
  | n + 1, h => by
    have ih : InvAt m c ((⟨n + 1, h⟩ : Fin cfg0.N).val - 1) (Nat.lt_of_le_of_lt (Nat.sub_le _ _) h) :=
      inv hsp hsn c n (Nat.lt_of_succ_lt h)
    by_cases h0 : (n + 1) % 10 = 0
    · exact inv_A m hsp hsn c ⟨n + 1, h⟩ h0 (by dsimp only; omega)
    · by_cases h1 : (n + 1) % 10 = 9
      · exact inv_C m hsp hsn c ⟨n + 1, h⟩ h0 h1 ih
      · exact inv_B m hsp hsn c ⟨n + 1, h⟩ h0 h1 ih

end Cert.Circle.K

end
-- ==== Proof.KFinal.lean ====
/-
  The two result arrays after the run. A half's last tile lays its two accumulators out across the half's stripe of 128
  lanes of the result arrays, and that stripe is written back once; the two stripes tile the arrays. So the first array
  holds, at row `b` and lane `j`, the label logit that half `j / 128` gathered for row `b`, and the second array, at every
  row and lane `j`, the negative total of half `j / 128`.
-/
import proofs.«401017_j79980880986260_3_alg».proof.Proof.Gen.KernelIdeal.Frame
import proofs.«401017_j79980880986260_3_alg».proof.Proof.KDefs
import Idealize.ShloMosaic.Lib.Pipeline.Value
import proofs.«401017_j79980880986260_3_alg».proof.Proof.KInv
import proofs.«401017_j79980880986260_3_alg».proof.Proof.Spec
import Idealize.ShloMosaic.Lib.ValueIdx
import Idealize.ShloMosaic.Lib.ValueLayout
set_option maxRecDepth 16384

noncomputable section

namespace Cert.Circle.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx Cert.Circle
open scoped BigOperators

variable (m : (ℓ : Loc nD τ sig) → Buf (Elt Ideal) ℓ)

/-! ## A column, and a single entry, laid out across lanes -/

theorem bcast_col {α : Type} (v : S256x1.Idx → α) (h : S256x1.Broadcasts S256x128) (p : Fin 256) (l : Fin 128) :
    broadcastTo S256x128 v h (ix2 p l) = v (ix2 p (0 : Fin 1)) := by
  refine broadcastTo_apply v h (ix2 p l) (ix2 p (0 : Fin 1)) fun ax => ?_
  match ax with
  | ⟨0, _⟩ => show p.val = if (256 : ℕ) = 1 then 0 else p.val; rw [if_neg (by decide)]
  | ⟨1, _⟩ => show (0 : ℕ) = if (1 : ℕ) = 1 then 0 else l.val; rw [if_pos rfl]

theorem bcast_one {α : Type} (v : S1x1.Idx → α) (h : S1x1.Broadcasts S8x128) (r : Fin 8) (l : Fin 128) :
    broadcastTo S8x128 v h (ix2 r l) = v (ix2 (0 : Fin 1) (0 : Fin 1)) := by
  refine broadcastTo_apply v h (ix2 r l) (ix2 (0 : Fin 1) (0 : Fin 1)) fun ax => ?_
  match ax with
  | ⟨0, _⟩ => show (0 : ℕ) = if (1 : ℕ) = 1 then 0 else r.val; rw [if_pos rfl]
  | ⟨1, _⟩ => show (0 : ℕ) = if (1 : ℕ) = 1 then 0 else l.val; rw [if_pos rfl]

/-! ## The result blocks at the last tile of a half -/

theorem out3_at (hsp : SpStep) (hsn : SnStep) (c : Dev nD) (t : Fin cfg0.N) (h0 : ¬t.val % 10 = 0) (h1 : t.val % 10 = 9)
    (b : Fin 256) (l : Fin 128) :
    ((outsAt0 m c t.val t.isLt).1 : S256x128.Idx → EReal) (ix2 b l)
      = spPart (ffA m c) (WA m c) (labA m c) (t.val / 10) 50000 b := by
  have hI := (inv m hsp hsn c t.val t.isLt).1 b (0 : Fin 1)
  rw [h1] at hI
  have hC := outsAt0_C m c t h0 h1
  rw [hC] at hI ⊢
  dsimp only at hI ⊢
  refine (congrFun (out3_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 b l)).trans ?_
  unfold k0_pay3
  rw [bcast_col, shapeCast_self]
  exact ((congrFun (sp_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 b (0 : Fin 1))).symm).trans hI

theorem out4_at (hsp : SpStep) (hsn : SnStep) (c : Dev nD) (t : Fin cfg0.N) (h0 : ¬t.val % 10 = 0) (h1 : t.val % 10 = 9)
    (r : Fin 8) (l : Fin 128) :
    ((outsAt0 m c t.val t.isLt).2.1 : S8x128.Idx → EReal) (ix2 r l) = snPart (ffA m c) (WA m c) (t.val / 10) 50000 := by
  have hI := (inv m hsp hsn c t.val t.isLt).2 (0 : Fin 1) (0 : Fin 1)
  rw [h1] at hI
  have hC := outsAt0_C m c t h0 h1
  rw [hC] at hI ⊢
  dsimp only at hI ⊢
  refine (congrFun (out4_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 r l)).trans ?_
  unfold k0_pay4
  rw [bcast_one, shapeCast_self]
  exact ((congrFun (sn_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _)
      (fun h => h0 ((hcond0_0 t).mp h)) ((hcond0_1 t).mpr h1) (iblk m c 0 t) (iblk m c 1 t) (iblk m c 2 t)
      (prev0 m c t) (prev1 m c t)) (ix2 (0 : Fin 1) (0 : Fin 1))).symm).trans hI

/-! ## The result arrays -/

/-- The first result array: at row `b`, lane `j`, what half `j / 128` gathered for row `b`. -/
def G3 (c : Dev nD) : S256x256.Idx → EReal := fun y =>
  spPart (ffA m c) (WA m c) (labA m c) ((y 1).val / 128) 50000 ⟨(y 0).val, idx2_lt0 y⟩

/-- The second result array: at every row, lane `j`, the negative total of half `j / 128`. -/
def G4 (c : Dev nD) : S8x256.Idx → EReal := fun y => snPart (ffA m c) (WA m c) ((y 1).val / 128) 50000

theorem win3_facts : ∀ t : Fin grid0.N, win0_3.index t 0 = 0 ∧ win0_3.index t 1 = t.val / 10 := by decide +kernel
theorem win4_facts : ∀ t : Fin grid0.N, win0_4.index t 0 = 0 ∧ win0_4.index t 1 = t.val / 10 := by decide +kernel

/-- What a half's last point writes back of the first result block is its stripe of `G3`. -/
theorem flushed_eq3 (hsp : SpStep) (hsn : SnStep) (c : Dev nD) (t : Fin cfg0.N) (hf : (cfg0.win 3).flush t = true) :
    (dats m 0 c).flushed 3 t = ((cfg0.win 3).blk t).view.read (Elt Ideal) (G3 m c) := by
  have h9 : t.val % 10 = 9 := (flush0_3 t).mp hf
  have h0 : ¬t.val % 10 = 0 := by omega
  funext y
  rw [View.read_apply]
  show (dats m 0 c).after 3 t ((cfg0.win 3).xinj (grid0.coords t) y) = _
  rw [after0_3]
  have hy0 : (((cfg0.win 3).xinj (grid0.coords t) y) 0).val = (y 0).val := rfl
  have hy1 : (((cfg0.win 3).xinj (grid0.coords t) y) 1).val = (y 1).val := rfl
  generalize (cfg0.win 3).xinj (grid0.coords t) y = z at hy0 hy1 ⊢
  obtain ⟨b, l, rfl⟩ : ∃ (b : Fin 256) (l : Fin 128), z = ix2 b l := ⟨z 0, z 1, eq_ix2 z⟩
  have hb : b.val = (y 0).val := hy0
  have hl : l.val = (y 1).val := hy1
  refine (out3_at m hsp hsn c t h0 h9 b l).trans ?_
  unfold G3
  have e1 : ((((cfg0.win 3).blk t).view.emb y) 1).val = t.val / 10 * 128 + l.val := by
    show win0_3.index t 1 * 128 + 1 * (y 1).val = _
    rw [(win3_facts t).2, ← hl]; omega
  have e0 : ((((cfg0.win 3).blk t).view.emb y) 0).val = b.val := by
    show win0_3.index t 0 * 256 + 1 * (y 0).val = _
    rw [(win3_facts t).1, ← hb]; omega
  have hl' := l.isLt
  congr 1
  · rw [e1]; omega
  · exact Fin.ext e0.symm

theorem flushed_eq4 (hsp : SpStep) (hsn : SnStep) (c : Dev nD) (t : Fin cfg0.N) (hf : (cfg0.win 4).flush t = true) :
    (dats m 0 c).flushed 4 t = ((cfg0.win 4).blk t).view.read (Elt Ideal) (G4 m c) := by
  have h9 : t.val % 10 = 9 := (flush0_4 t).mp hf
  have h0 : ¬t.val % 10 = 0 := by omega
  funext y
  rw [View.read_apply]
  show (dats m 0 c).after 4 t ((cfg0.win 4).xinj (grid0.coords t) y) = _
  rw [after0_4]
  have hy1 : (((cfg0.win 4).xinj (grid0.coords t) y) 1).val = (y 1).val := rfl
  generalize (cfg0.win 4).xinj (grid0.coords t) y = z at hy1 ⊢
  obtain ⟨r, l, rfl⟩ : ∃ (r : Fin 8) (l : Fin 128), z = ix2 r l := ⟨z 0, z 1, eq_ix2 z⟩
  have hl : l.val = (y 1).val := hy1
  refine (out4_at m hsp hsn c t h0 h9 r l).trans ?_
  unfold G4
  have e1 : ((((cfg0.win 4).blk t).view.emb y) 1).val = t.val / 10 * 128 + l.val := by
    show win0_4.index t 1 * 128 + 1 * (y 1).val = _
    rw [(win4_facts t).2, ← hl]; omega
  have hl' := l.isLt
  congr 1
  rw [e1]; omega

/-! ## The two stripes tile the arrays -/

/-- The last point of the first half, and of the second. -/
abbrev t9 : Fin cfg0.N := ⟨9, by rw [show cfg0.N = 20 from N_0]; omega⟩
abbrev t19 : Fin cfg0.N := ⟨19, by rw [show cfg0.N = 20 from N_0]; omega⟩

/-- The first result array after the run. -/
theorem final3 (hsp : SpStep) (hsn : SnStep) (c : Dev nD) : (dats m 0 c).arrAt 3 cfg0.N = G3 m c :=
  (dats m 0 c).arrAt_eq_of_cover 3 (G3 m c) (flushed_eq3 m hsp hsn c) fun i => by
    have h0 : (i 0 : Nat) < 256 := (i 0).isLt
    have h1 : (i 1 : Nat) < 256 := (i 1).isLt
    rcases Nat.lt_or_ge (i 1 : Nat) 128 with h | h
    · refine ⟨t9, (flush0_3 t9).mpr rfl, ?_⟩
      show i ∈ ((View.whole main_v7_0).slice (win0_3.rect t9)).set
      rw [View.set_slice_whole, Rect.mem_set_unit]
      intro a
      match a with
      | ⟨0, _⟩ =>
        show win0_3.index t9 0 * win0_3.size 0 ≤ (i 0 : Nat) ∧ (i 0 : Nat) < win0_3.index t9 0 * win0_3.size 0 + win0_3.xsize (grid0.coords t9) 0
        rw [show win0_3.index t9 0 * win0_3.size 0 = 0 from by decide +kernel, show win0_3.xsize (grid0.coords t9) 0 = 256 from by decide +kernel]; omega
      | ⟨1, _⟩ =>
        show win0_3.index t9 1 * win0_3.size 1 ≤ (i 1 : Nat) ∧ (i 1 : Nat) < win0_3.index t9 1 * win0_3.size 1 + win0_3.xsize (grid0.coords t9) 1
        rw [show win0_3.index t9 1 * win0_3.size 1 = 0 from by decide +kernel, show win0_3.xsize (grid0.coords t9) 1 = 128 from by decide +kernel]; omega
    · refine ⟨t19, (flush0_3 t19).mpr rfl, ?_⟩
      show i ∈ ((View.whole main_v7_0).slice (win0_3.rect t19)).set
      rw [View.set_slice_whole, Rect.mem_set_unit]
      intro a
      match a with
      | ⟨0, _⟩ =>
        show win0_3.index t19 0 * win0_3.size 0 ≤ (i 0 : Nat) ∧ (i 0 : Nat) < win0_3.index t19 0 * win0_3.size 0 + win0_3.xsize (grid0.coords t19) 0
        rw [show win0_3.index t19 0 * win0_3.size 0 = 0 from by decide +kernel, show win0_3.xsize (grid0.coords t19) 0 = 256 from by decide +kernel]; omega
      | ⟨1, _⟩ =>
        show win0_3.index t19 1 * win0_3.size 1 ≤ (i 1 : Nat) ∧ (i 1 : Nat) < win0_3.index t19 1 * win0_3.size 1 + win0_3.xsize (grid0.coords t19) 1
        rw [show win0_3.index t19 1 * win0_3.size 1 = 128 from by decide +kernel, show win0_3.xsize (grid0.coords t19) 1 = 128 from by decide +kernel]; omega

/-- The second result array after the run. -/
theorem final4 (hsp : SpStep) (hsn : SnStep) (c : Dev nD) : (dats m 0 c).arrAt 4 cfg0.N = G4 m c :=
  (dats m 0 c).arrAt_eq_of_cover 4 (G4 m c) (flushed_eq4 m hsp hsn c) fun i => by
    have h0 : (i 0 : Nat) < 8 := (i 0).isLt
    have h1 : (i 1 : Nat) < 256 := (i 1).isLt
    rcases Nat.lt_or_ge (i 1 : Nat) 128 with h | h
    · refine ⟨t9, (flush0_4 t9).mpr rfl, ?_⟩
      show i ∈ ((View.whole main_v7_1).slice (win0_4.rect t9)).set
      rw [View.set_slice_whole, Rect.mem_set_unit]
      intro a
      match a with
      | ⟨0, _⟩ =>
        show win0_4.index t9 0 * win0_4.size 0 ≤ (i 0 : Nat) ∧ (i 0 : Nat) < win0_4.index t9 0 * win0_4.size 0 + win0_4.xsize (grid0.coords t9) 0
        rw [show win0_4.index t9 0 * win0_4.size 0 = 0 from by decide +kernel, show win0_4.xsize (grid0.coords t9) 0 = 8 from by decide +kernel]; omega
      | ⟨1, _⟩ =>
        show win0_4.index t9 1 * win0_4.size 1 ≤ (i 1 : Nat) ∧ (i 1 : Nat) < win0_4.index t9 1 * win0_4.size 1 + win0_4.xsize (grid0.coords t9) 1
        rw [show win0_4.index t9 1 * win0_4.size 1 = 0 from by decide +kernel, show win0_4.xsize (grid0.coords t9) 1 = 128 from by decide +kernel]; omega
    · refine ⟨t19, (flush0_4 t19).mpr rfl, ?_⟩
      show i ∈ ((View.whole main_v7_1).slice (win0_4.rect t19)).set
      rw [View.set_slice_whole, Rect.mem_set_unit]
      intro a
      match a with
      | ⟨0, _⟩ =>
        show win0_4.index t19 0 * win0_4.size 0 ≤ (i 0 : Nat) ∧ (i 0 : Nat) < win0_4.index t19 0 * win0_4.size 0 + win0_4.xsize (grid0.coords t19) 0
        rw [show win0_4.index t19 0 * win0_4.size 0 = 0 from by decide +kernel, show win0_4.xsize (grid0.coords t19) 0 = 8 from by decide +kernel]; omega
      | ⟨1, _⟩ =>
        show win0_4.index t19 1 * win0_4.size 1 ≤ (i 1 : Nat) ∧ (i 1 : Nat) < win0_4.index t19 1 * win0_4.size 1 + win0_4.xsize (grid0.coords t19) 1
        rw [show win0_4.index t19 1 * win0_4.size 1 = 128 from by decide +kernel, show win0_4.xsize (grid0.coords t19) 1 = 128 from by decide +kernel]; omega

end Cert.Circle.K

end
-- ==== Proof.KHost.lean ====
/-
  The kernel program's host side, read at the ideal instance: the array the first window stages is the scaled
  embeddings, the array the third window stages is the label column, and the lines after the region turn the two
  result arrays into the loss.
-/
import proofs.«401017_j79980880986260_3_alg».proof.Proof.Gen.KernelIdeal.Frame
import proofs.«401017_j79980880986260_3_alg».proof.Proof.Spec
import proofs.«401017_j79980880986260_3_alg».proof.Proof.LibSums
import Idealize.ShloMosaic.Lib.StableHlo.Run
import Idealize.ShloMosaic.Lib.ValueLayout

set_option maxRecDepth 16384

noncomputable section

open scoped BigOperators

namespace Cert.Circle.KHost

open Cert.KernelIdeal Cert.KernelIdeal.Gen Idealize.ShloMosaic Idealize.ShloMosaic.TcCoe Idealize.SL.Sem
open Idealize.ShloMosaic.ValueIdx Cert.Circle

variable (m : (ℓ : Loc nD τ sig) → Buf (Elt Ideal) ℓ)

/-- A host sum over axis 1 of a rank-2 array, at row `j`: the initial value plus the sum along the row. -/
private theorem hostSum_axis1_of2 {n0 n1 : Nat} {u : Shape} {φ : FTy}
    (x : FVec Ideal ⟨2, ![n0, n1]⟩ φ) (init : u.Idx → Ideal φ)
    (h' : Shape.ReducesTo ⟨2, ![n0, n1]⟩ [1] ⟨1, ![n0]⟩) (hu : 0 < u.numel) (j : (⟨1, ![n0]⟩ : Shape).Idx) :
    Host.reduceAdd x init h' hu j = init (Shape.Idx.first hu) + ∑ k : Fin n1, x (ix2 (j 0) k) := by
  rw [LibSums.hostReduceAdd_apply]
  refine LibSums.hostReduceAdd_of_lift h' x _ j (fun k => ix2 (j 0) k) (fun i => i 1) ?_ (fun _ => rfl) ?_
  · intro k; funext b
    match b with
    | ⟨0, _⟩ => rfl
  · intro i hi; subst hi; funext a
    match a with
    | ⟨0, _⟩ => rfl
    | ⟨1, _⟩ => rfl

/-- A rank-0 constant broadcast to any shape reads the constant's word everywhere. -/
private theorem bcast_const_apply {t : Shape} {φ : FTy} (w : BitVec φ.bits)
    (h : S_.BroadcastsInDim t (![] : Fin 0 → Fin t.rank)) (j : t.Idx) :
    broadcastInDim t ![] h (constant (F := Ideal) S_ φ w) j = Ideal.ofBits φ w :=
  broadcastInDim_apply ![] h _ j ix0 (fun a => a.elim0)

section Pointwise
variable {s : Shape} {φ : FTy}
/-- The host's quotient, square root, exponential and logarithm act entry by entry. -/
private theorem hostDivf_apply (x y : FVec Ideal s φ) (i : s.Idx) : Host.divf x y i = Ideal.div (x i) (y i) := rfl
private theorem hostSqrt_apply (x : FVec Ideal s φ) (i : s.Idx) : Host.sqrt x i = Ideal.sqrt (x i) := rfl
private theorem hostExp_apply (x : FVec Ideal s φ) (i : s.Idx) : Host.exp x i = Ideal.exp (x i) := rfl
private theorem hostLog_apply (x : FVec Ideal s φ) (i : s.Idx) : Host.log x i = Ideal.log (x i) := rfl
end Pointwise

/-- The array of window 0, as the region finds it: the embeddings scaled to unit length. -/
theorem V_ff (c : Dev nD) :
    (V m c main_v5 : S256x512.Idx → EReal) = normalize (m ((c : Thread nD τ).loc main_arg2)) := by
  have e : (V m c main_v5 : S256x512.Idx → EReal)
      = truncf .bf16 (Host.divf (F := Ideal) (m ((c : Thread nD τ).loc main_arg2))
          (broadcastInDim S256x512 ![0, 1] bcast_S256x1_S256x512_0_1
            (maximumf (F := Ideal)
              (Host.sqrt (F := Ideal) (broadcastInDim S256x1 ![0] bcast_S256_S256x1_0
                (Host.reduceAdd (F := Ideal)
                  (mulf (F := Ideal) (m ((c : Thread nD τ).loc main_arg2)) (m ((c : Thread nD τ).loc main_arg2)))
                  (constant (F := Ideal) S_ .f32 0x00000000#32) reducesTo_S256x512_S256_d1 h_S_)))
              (broadcastInDim S256x1 ![] bcast_S_S256x1 (constant (F := Ideal) S_ .f32 0x2B8CBCCC#32)))))
          bitsLt_bf16_f32 := by
    dsimp only [V, V0]
    simp only [hostOps0, hostOps0_1, List.flatten_cons, List.flatten_nil, List.append_nil, List.cons_append, List.nil_append]
    after_results
    rfl
  rw [e]
  funext i
  obtain ⟨b, d, rfl⟩ : ∃ b d, i = ix2 b d := ⟨i 0, i 1, eq_ix2 i⟩
  unfold normalize
  rw [truncf_apply, hostDivf_apply]
  rw [broadcastInDim_apply ![0, 1] bcast_S256x1_S256x512_0_1 _ (ix2 b d) (ix2 b (0 : Fin 1))
    (fun a => by match a with | ⟨0, _⟩ => rfl | ⟨1, _⟩ => rfl)]
  rw [maximumf_apply, bcast_const_apply, hostSqrt_apply]
  rw [broadcastInDim_apply ![0] bcast_S256_S256x1_0 _ (ix2 b (0 : Fin 1)) (ix1 b)
    (fun a => by match a with | ⟨0, _⟩ => rfl)]
  rw [hostSum_axis1_of2]
  rfl

/-- The array of window 2, as the region finds it: the labels as a column. -/
theorem V_lab (c : Dev nD) (i : S256x1.Idx) :
    (V m c main_v6 : S256x1.Idx → BitVec 32) i = m ((c : Thread nD τ).loc main_arg1) (ix1 (i 0)) := by
  have e : (V m c main_v6 : S256x1.Idx → BitVec 32)
      = shapeCast S256x1 (m ((c : Thread nD τ).loc main_arg1)) shapeCasts_S256_S256x1 := by
    dsimp only [V, V0]
    simp only [hostOps0, hostOps0_1, List.flatten_cons, List.flatten_nil, List.append_nil, List.cons_append, List.nil_append]
    after_results
    rfl
  rw [e]
  obtain ⟨b, u, rfl⟩ : ∃ b u, i = ix2 b u := ⟨i 0, i 1, eq_ix2 i⟩
  exact LibSums.shapeCast_a_a1_apply _ _ b u

section Tail
variable (osp : S256x256.Idx → EReal) (osn : S8x256.Idx → EReal)

/-- The rows' label logits as the lines after the region form them: the first result array cut into two stripes of
    128 lanes, the first lane of each stripe kept, the two added to zero. -/
private def tSp : S256.Idx → EReal :=
  Host.reduceAdd (F := Ideal) (φ := .f32)
    (shapeCast S256x2
      (extractStridedSlice S256x2x1 ![0, 0, 0] (shapeCast S256x2x128 osp shapeCasts_S256x256_S256x2x128)
        slices_S256x2x128_S256x2x1_0_0_0)
      shapeCasts_S256x2x1_S256x2)
    (constant (F := Ideal) S_ .f32 0x00000000#32) reducesTo_S256x2_S256_d1 h_S_

/-- The unmasked negative sum as the lines after the region form it: row 0 of the second result array cut into two
    stripes of 128 lanes, the first lane of each kept, the two added to zero. -/
private def tSn : S_.Idx → EReal :=
  Host.reduceAdd (F := Ideal) (φ := .f32)
    (shapeCast S2
      (extractStridedSlice S2x1 ![0, 0]
        (shapeCast S2x128
          (shapeCast S256 (extractStridedSlice S1x256 ![0, 0] osn slices_S8x256_S1x256_0_0) shapeCasts_S1x256_S256)
          shapeCasts_S256_S2x128)
        slices_S2x128_S2x1_0_0)
      shapeCasts_S2x1_S2)
    (constant (F := Ideal) S_ .f32 0x00000000#32) reducesTo_S2_S_d0 h_S_

/-- A constant word spread over the 256 rows. -/
private def bc (w : BitVec 32) : S256.Idx → EReal :=
  broadcastInDim S256 ![] bcast_S_S256 (constant (F := Ideal) S_ .f32 w)

/-- The label columns' negative terms, summed over the rows. -/
private def tLab : S_.Idx → EReal :=
  Host.reduceAdd (F := Ideal) (φ := .f32)
    (Host.exp (F := Ideal)
      (mulf (F := Ideal)
        (mulf (F := Ideal) (bc 0x42800000#32)
          (maximumf (F := Ideal) (addf (F := Ideal) (tSp osp) (bc 0x3E800000#32)) (bc 0x00000000#32)))
        (subf (F := Ideal) (tSp osp) (bc 0x3E800000#32))))
    (constant (F := Ideal) S_ .f32 0x00000000#32) reducesTo_S256_S_d0 h_S_

/-- The positive terms, summed over the rows. -/
private def tPos : S_.Idx → EReal :=
  Host.reduceAdd (F := Ideal) (φ := .f32)
    (Host.exp (F := Ideal)
      (mulf (F := Ideal)
        (mulf (F := Ideal) (bc 0xC2800000#32)
          (maximumf (F := Ideal) (subf (F := Ideal) (bc 0x3FA00000#32) (tSp osp)) (bc 0x00000000#32)))
        (subf (F := Ideal) (tSp osp) (bc 0x3F400000#32))))
    (constant (F := Ideal) S_ .f32 0x00000000#32) reducesTo_S256_S_d0 h_S_

/-- The program's result from the two result arrays. -/
private def tOut : S_.Idx → EReal :=
  Host.log (F := Ideal)
    (addf (F := Ideal) (constant (F := Ideal) S_ .f32 0x3F800000#32)
      (mulf (F := Ideal) (subf (F := Ideal) (tSn osn) (tLab osp)) (tPos osp)))

/-- A row's label logit is zero plus the first lanes of the two stripes of its row. -/
private theorem tSp_at (b : Fin 256) :
    tSp osp (ix1 b) = k0 + ∑ c : Fin 2, osp (ix2 b ⟨c.val * 128, by omega⟩) := by
  unfold tSp
  rw [hostSum_axis1_of2]
  refine congrArg (k0 + ·) (Finset.sum_congr rfl fun c _ => ?_)
  rw [shapeCast_apply _ shapeCasts_S256x2x1_S256x2 (ix2 b c) (ix3 b c (0 : Fin 1)) (by
    rw [Shape.rowMajor_val_three, Shape.rowMajor_val_two]
    show (b.val * 2 + c.val) * 1 + 0 = b.val * 2 + c.val
    omega)]
  rw [extractStridedSlice_apply ![0, 0, 0] _ slices_S256x2x128_S256x2x1_0_0_0 (ix3 b c (0 : Fin 1)) (ix3 b c (0 : Fin 128))
    (fun a => by
      match a with
      | ⟨0, _⟩ => exact (Nat.zero_add _).symm
      | ⟨1, _⟩ => exact (Nat.zero_add _).symm
      | ⟨2, _⟩ => exact (Nat.zero_add _).symm)]
  exact shapeCast_apply osp shapeCasts_S256x256_S256x2x128 (ix3 b c (0 : Fin 128)) _ (by
    rw [Shape.rowMajor_val_three, Shape.rowMajor_val_two]
    show b.val * 256 + c.val * 128 = (b.val * 2 + c.val) * 128 + 0
    omega)

/-- The unmasked negative sum is zero plus the first lanes of the two stripes of row 0. -/
private theorem tSn_at (i : S_.Idx) :
    tSn osn i = k0 + ∑ c : Fin 2, osn (ix2 (0 : Fin 8) ⟨c.val * 128, by omega⟩) := by
  unfold tSn
  rw [LibSums.hostSum_all1 _ _ _ _ (fun b => b.elim0)]
  refine congrArg (k0 + ·) (Finset.sum_congr rfl fun c _ => ?_)
  rw [LibSums.shapeCast_a1_a_apply]
  rw [extractStridedSlice_apply ![0, 0] _ slices_S2x128_S2x1_0_0 (ix2 c (0 : Fin 1)) (ix2 c (0 : Fin 128))
    (fun a => by
      match a with
      | ⟨0, _⟩ => exact (Nat.zero_add _).symm
      | ⟨1, _⟩ => exact (Nat.zero_add _).symm)]
  rw [shapeCast_apply _ shapeCasts_S256_S2x128 (ix2 c (0 : Fin 128)) (ix1 (⟨c.val * 128, by omega⟩ : Fin 256)) (by
    rw [Shape.rowMajor_val_one, Shape.rowMajor_val_two]
    show c.val * 128 = c.val * 128 + 0
    omega)]
  rw [shapeCast_apply _ shapeCasts_S1x256_S256 (ix1 (⟨c.val * 128, by omega⟩ : Fin 256))
    (ix2 (0 : Fin 1) (⟨c.val * 128, by omega⟩ : Fin 256)) (by
    rw [Shape.rowMajor_val_one, Shape.rowMajor_val_two]
    show 0 * 256 + c.val * 128 = c.val * 128
    omega)]
  exact extractStridedSlice_apply ![0, 0] osn slices_S8x256_S1x256_0_0 _ (ix2 (0 : Fin 8) ⟨c.val * 128, by omega⟩)
    (fun a => by
      match a with
      | ⟨0, _⟩ => exact (Nat.zero_add _).symm
      | ⟨1, _⟩ => exact (Nat.zero_add _).symm)

/-- The label columns' terms are the negative terms at the rows' label logits. -/
private theorem tLab_at (i : S_.Idx) : tLab osp i = k0 + ∑ b : Fin 256, negTerm (tSp osp (ix1 b)) := by
  unfold tLab
  rw [LibSums.hostSum_all1 _ _ _ _ (fun b => b.elim0)]
  refine congrArg (k0 + ·) (Finset.sum_congr rfl fun b _ => ?_)
  rw [hostExp_apply, mulf_apply, mulf_apply, maximumf_apply, addf_apply, subf_apply]
  unfold bc negTerm
  rw [bcast_const_apply, bcast_const_apply, bcast_const_apply]

/-- The positive terms are taken at the rows' label logits. -/
private theorem tPos_at (i : S_.Idx) : tPos osp i = k0 + ∑ b : Fin 256, posTerm (tSp osp (ix1 b)) := by
  unfold tPos
  rw [LibSums.hostSum_all1 _ _ _ _ (fun b => b.elim0)]
  refine congrArg (k0 + ·) (Finset.sum_congr rfl fun b _ => ?_)
  rw [hostExp_apply, mulf_apply, mulf_apply, maximumf_apply, subf_apply, subf_apply]
  unfold bc posTerm
  rw [bcast_const_apply, bcast_const_apply, bcast_const_apply, bcast_const_apply]

/-- The lines after the region compute `tailLoss` of the two result arrays. -/
private theorem tOut_at (i : S_.Idx) : tOut osp osn i = tailLoss osp osn := by
  unfold tOut tailLoss loss
  rw [hostLog_apply, addf_apply, mulf_apply, subf_apply, tSn_at, tLab_at, tPos_at, constant_apply]
  simp only [tSp_at]

end Tail

/-- The lines after the region: the program's result is `tailLoss` of the two result arrays as the region leaves them. -/
theorem tail_value (c : Dev nD) :
    (Pipeline.afterTail₀ cfgs (dats m) 0 (V0 m) [hostOps1] c main_v43 : S_.Idx → EReal)
      = fun _ => tailLoss ((dats m 0 c).arrAt 3 cfg0.N) ((dats m 0 c).arrAt 4 cfg0.N) := by
  unfold Pipeline.afterTail₀
  simp only [List.flatten_cons, List.flatten_nil, List.append_nil]
  show StableHlo.after hostOps1 _ (Proc.devRef .tc main_v43) = _
  after_results_simp
  have h3 : Pipeline.withArrays (cfgs 0).spec c (V0 m c) (fun w => (dats m 0 c).arrAt w (cfgs 0).N)
      (Proc.devRef .tc main_v7_0) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N)
      (Proc.devRef .tc main_v7_1) = (dats m 0 c).arrAt 4 cfg0.N :=
    Pipeline.withArrays_arr spec0 launch0.win.arr_inj c _ _ 4
  rw [h3, h4]
  exact funext (tOut_at ((dats m 0 c).arrAt 3 cfg0.N) ((dats m 0 c).arrAt 4 cfg0.N))

end Cert.Circle.KHost

end
-- ==== Proof.KStepSp.lean ====
/-
  The label-logit column of a tile, at the ideal instance and at an index: every row gains the logit against the class
  whose number is the row's label word, if that class lies in the tile. A class number of the tile is the tile's first class
  number plus the row's position in the tile, as 32-bit words without overflow.
-/
import proofs.«401017_j79980880986260_3_alg».proof.Proof.KDefs
import proofs.«401017_j79980880986260_3_alg».proof.Proof.Spec
import proofs.«401017_j79980880986260_3_alg».proof.Proof.LibSums
import Idealize.ShloMosaic.Lib.ValueIdx
import Idealize.ShloMosaic.Lib.ValueLayout
import Idealize.ShloMosaic.PureOps.Ideal.Laws
import Idealize.ShloMosaic.Lib.Pipeline.Value
import Idealize.ShloMosaic.Lib.Affine
import Mathlib.Algebra.BigOperators.Fin

set_option maxRecDepth 16384

noncomputable section

open scoped BigOperators

namespace Cert.Circle.K

open Cert.KernelIdeal Cert.KernelIdeal.Gen Idealize.ShloMosaic Idealize.ShloMosaic.ValueIdx Cert.Circle

/-! ## The logit block -/

private theorem lhs_dot_0 (i : S256x1000.Idx) (q : dot_S256x512_S1000x512_S256x1000_1_1_0_0_n_n.contr.Idx) :
    (dot_S256x512_S1000x512_S256x1000_1_1_0_0_n_n.lhsIdx i q 0).val = (i 0).val := by
  unfold DotDims.lhsIdx
  rw [dif_neg (show ¬(0 : Fin S256x512.rank) ∈ dot_S256x512_S1000x512_S256x1000_1_1_0_0_n_n.lhsBatch by decide), dif_pos (show (0 : Fin S256x512.rank) ∈ dot_S256x512_S1000x512_S256x1000_1_1_0_0_n_n.lhsNonContracting by decide)]
  rfl
private theorem lhs_dot_1 (i : S256x1000.Idx) (q : dot_S256x512_S1000x512_S256x1000_1_1_0_0_n_n.contr.Idx) :
    (dot_S256x512_S1000x512_S256x1000_1_1_0_0_n_n.lhsIdx i q 1).val = (q ⟨0, by decide⟩).val :=
  dot_S256x512_S1000x512_S256x1000_1_1_0_0_n_n.lhsIdx_val_of_single rfl i q
private theorem rhs_dot_0 (i : S256x1000.Idx) (q : dot_S256x512_S1000x512_S256x1000_1_1_0_0_n_n.contr.Idx) :
    (dot_S256x512_S1000x512_S256x1000_1_1_0_0_n_n.rhsIdx i q 0).val = (i 1).val := by
  unfold DotDims.rhsIdx
  rw [dif_neg (show ¬(0 : Fin S1000x512.rank) ∈ dot_S256x512_S1000x512_S256x1000_1_1_0_0_n_n.rhsBatch by decide), dif_pos (show (0 : Fin S1000x512.rank) ∈ dot_S256x512_S1000x512_S256x1000_1_1_0_0_n_n.rhsNonContracting by decide)]
  rfl
private theorem rhs_dot_1 (i : S256x1000.Idx) (q : dot_S256x512_S1000x512_S256x1000_1_1_0_0_n_n.contr.Idx) :
    (dot_S256x512_S1000x512_S256x1000_1_1_0_0_n_n.rhsIdx i q 1).val = (q ⟨0, by decide⟩).val :=
  dot_S256x512_S1000x512_S256x1000_1_1_0_0_n_n.rhsIdx_val_of_single rfl i q

/-- The block of logits of a chunk: entry (b, j) is the inner product of embedding row b and weight row j of the chunk. -/
private theorem logitBlock_apply (v4 : FVec Ideal S256x512 .bf16) (w : FVec Ideal S1000x512 .f32) (b : Fin 256) (j : Fin 1000) :
    (matmul (F := Ideal) dot_S256x512_S1000x512_S256x1000_1_1_0_0_n_n none v4 (truncf .bf16 w bitsLt_bf16_f32)
        (constant S256x1000 .f32 0x00000000#32)) (ix2 b j)
      = ∑ d : Fin 512, v4 (ix2 b d) * w (ix2 j d) := by
  simp only [matmul]
  rw [Ideal.matmul_constant_zero_apply, ← Equiv.sum_comp (ValueIdx.contrEquiv1 dot_S256x512_S1000x512_S256x1000_1_1_0_0_n_n 512 rfl rfl).symm]
  refine Finset.sum_congr rfl fun k _ => ?_
  have hk := ValueIdx.contrEquiv1_symm_val dot_S256x512_S1000x512_S256x1000_1_1_0_0_n_n 512 rfl rfl k
  have el : dot_S256x512_S1000x512_S256x1000_1_1_0_0_n_n.lhsIdx (ix2 b j) ((ValueIdx.contrEquiv1 dot_S256x512_S1000x512_S256x1000_1_1_0_0_n_n 512 rfl rfl).symm k) = ix2 b k := funext fun a => Fin.ext (by
    match a with
    | ⟨0, _⟩ => exact lhs_dot_0 _ _
    | ⟨1, _⟩ => exact (lhs_dot_1 _ _).trans hk)
  have er : dot_S256x512_S1000x512_S256x1000_1_1_0_0_n_n.rhsIdx (ix2 b j) ((ValueIdx.contrEquiv1 dot_S256x512_S1000x512_S256x1000_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]
  rfl

/-- A select on an equality test of two words is the conditional on their equality. -/
private theorem select_cmpi_eq {α : Type} {w : Nat} (x y : BitVec w) (a c : α) :
    Scalar.select (IntOp.cmpi .eq x y) a c = if x = y then a else c := by
  unfold Scalar.select
  by_cases h : x = y
  · rw [if_pos h]; exact if_pos (IntOp.cmpi_eq.mpr h)
  · rw [if_neg h]; exact if_neg (fun h' => h (IntOp.cmpi_eq.mp h'))

/-- An `[a, 1]` array broadcast to `[a, n]` reads, at `(p, c)`, the operand's row `p`. -/
private theorem broadcastTo_a1_an_apply {α : Type} {a n : ℕ} (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One chunk's gain of the label-logit column: row `b` gains, over the chunk's thousand lanes `j`, the block's entry
    where the row's label word is the chunk's base word plus `j`, and `z` elsewhere. -/
private theorem chunk_apply (acc : FVec Ideal S256x1 .f32) (lab : IVec S256x1 32) (base : BitVec 32)
    (L : FVec Ideal S256x1000 .f32) (z : EReal)
    (h1 : S256x1.Broadcasts S256x1000) (h2 : S1x1000.Broadcasts S256x1000) (hi : S1x1000.Iotas .tc 32 [1])
    (hr : S256x1000.Reduces [1] S256) (hφ : FKind.Formats .f32) (hacc : (0x00000000#32 : BitVec 32) = 0x00000000#32)
    (hc : S256.ShapeCasts S256x1) (b : Fin 256) (u : Fin 1) :
    (addf acc (shapeCast S256x1 (multiReduction (F := Ideal) .add [1] S256
        (select (cmpi .eq (broadcastTo S256x1000 lab h1)
            (broadcastTo S256x1000 (addi (broadcast S1x1000 base) (iota .tc S1x1000 32 [1] hi)) h2))
          L (broadcast S256x1000 z)) 0x00000000#32 hr hφ hacc) hc)) (ix2 b u)
      = acc (ix2 b u) + ∑ j : Fin 1000, (if lab (ix2 b (0 : Fin 1)) = base + BitVec.ofNat 32 j.val then L (ix2 b j) else z) := by
  rw [addf_apply, LibSums.shapeCast_a_a1_apply, LibSums.vecSum_axis1_of2_ix]
  refine congrArg (acc (ix2 b u) + ·) (Finset.sum_congr rfl fun j _ => ?_)
  rw [select_apply]
  show Scalar.select (IntOp.cmpi .eq (broadcastTo S256x1000 lab h1 (ix2 b j))
      (broadcastTo S256x1000 (addi (broadcast S1x1000 base) (iota .tc S1x1000 32 [1] hi)) h2 (ix2 b j))) (L (ix2 b j)) z = _
  rw [broadcastTo_a1_an_apply, broadcastTo_1b_ab_apply, select_cmpi_eq]
  show (if lab (ix2 b (0 : Fin 1)) = base + iota .tc S1x1000 32 [1] hi (ix2 (0 : Fin 1) j) then _ else _) = _
  rw [iota_single_apply]

/-! ## The words of the class numbers -/

/-- There are twenty tiles. -/
private theorem tileNo_le (i : grid0.Coords) : tileNo i ≤ 19 := by
  have h0 : (i 0).val < 2 := (i 0).isLt
  have h1 : (i 1).val < 10 := (i 1).isLt
  unfold tileNo
  omega

/-- The word of a tile's first class number is that number: nothing overflows. -/
private theorem tileBase_eq (i : grid0.Coords) : tileBase i = BitVec.ofNat 32 (tileNo i * 5000) := by
  have h0 : (i 0).val < 2 := (i 0).isLt
  have h1 : (i 1).val < 10 := (i 1).isLt
  unfold tileBase tileNo Scalar.muli Scalar.addi IntOp.muli IntOp.addi
  apply BitVec.eq_of_toNat_eq
  simp only [BitVec.toNat_mul, BitVec.toNat_add, BitVec.toNat_ofNat]
  omega

/-- The word of lane `j` of the chunk at offset `m` of the tile is the class number `tileNo · 5000 + (m + j)`. -/
private theorem word_eq (i : grid0.Coords) (c : BitVec 32) (m : ℕ) (hc : c.toNat = m) (hm : m ≤ 4000) (j : ℕ) (hj : j < 1000) :
    Scalar.addi (tileBase i) c + BitVec.ofNat 32 j = BitVec.ofNat 32 (tileNo i * 5000 + (m + j)) := by
  have ht := tileNo_le i
  rw [tileBase_eq]
  unfold Scalar.addi IntOp.addi
  apply BitVec.eq_of_toNat_eq
  simp only [BitVec.toNat_add, BitVec.toNat_ofNat, hc]
  omega

/-! ## The rows of a chunk -/

/-- Row `j` of the thousand rows from row `off` on is row `off + j` of the tile. -/
private theorem wRows_apply (x1 : S5000x512.Idx → EReal) (off : ℕ) (h : off ≤ 4000) (j : Fin 1000) (d : Fin 512) :
    wRows (F := Ideal) x1 off h (ix2 j d) = rowN x1 (off + j.val) d := by
  have hj := j.isLt
  unfold rowN
  rw [dif_pos (show off + j.val < 5000 by omega)]
  show x1 _ = x1 _
  refine congrArg x1 (funext fun a => Fin.ext ?_)
  match a with
  | ⟨0, _⟩ => show off + 1 * j.val = off + j.val; omega
  | ⟨1, _⟩ => show 0 + 1 * d.val = d.val; omega

/-! ## One chunk, and the five chunks of a tile -/

/-- What class number `n` of the tile gives row `b`: its logit where the row's label word is the class number, zero elsewhere. -/
private def pick (i : grid0.Coords) (x0 : S256x512.Idx → EReal) (x1 : S5000x512.Idx → EReal) (x2 : S256x1.Idx → BitVec 32)
    (b : Fin 256) (n : ℕ) : EReal :=
  if x2 (ix2 b (0 : Fin 1)) = BitVec.ofNat 32 (tileNo i * 5000 + n) then ∑ d : Fin 512, x0 (ix2 b d) * rowN x1 n d else 0

/-- The chunk at offset `m` of the tile adds to row `b` of the column what the class numbers `m, …, m + 999` of the tile give. -/
private theorem chunk_pick (i : grid0.Coords) (x0 : S256x512.Idx → EReal) (x1 : S5000x512.Idx → EReal)
    (x2 : S256x1.Idx → BitVec 32) (A : FVec Ideal S256x1 .f32) (c : BitVec 32) (m : ℕ) (hc : c.toNat = m) (hm : m ≤ 4000)
    (z : EReal) (hz : z = 0) (v4 : FVec Ideal S256x512 .bf16) (hv4 : v4 = x0) (v6 : IVec S256x1 32) (hv6 : v6 = x2)
    (h1 : S256x1.Broadcasts S256x1000) (h2 : S1x1000.Broadcasts S256x1000) (hi : S1x1000.Iotas .tc 32 [1])
    (hr : S256x1000.Reduces [1] S256) (hφ : FKind.Formats .f32) (hacc : (0x00000000#32 : BitVec 32) = 0x00000000#32)
    (hc' : S256.ShapeCasts S256x1) (b : Fin 256) (u : Fin 1) :
    (addf A (shapeCast S256x1 (multiReduction (F := Ideal) .add [1] S256
        (select (cmpi .eq (broadcastTo S256x1000 v6 h1)
            (broadcastTo S256x1000 (addi (broadcast S1x1000 (Scalar.addi (tileBase i) c)) (iota .tc S1x1000 32 [1] hi)) h2))
          (matmul (F := Ideal) dot_S256x512_S1000x512_S256x1000_1_1_0_0_n_n none v4
            (truncf .bf16 (wRows (F := Ideal) x1 m hm) bitsLt_bf16_f32) (constant S256x1000 .f32 0x00000000#32))
          (broadcast S256x1000 z)) 0x00000000#32 hr hφ hacc) hc')) (ix2 b u)
      = A (ix2 b u) + ∑ j ∈ Finset.range 1000, pick i x0 x1 x2 b (m + j) := by
  subst hv4 hv6 hz
  rw [chunk_apply, ← Fin.sum_univ_eq_sum_range (fun j => pick i v4 x1 v6 b (m + j)) 1000]
  refine congrArg (A (ix2 b u) + ·) (Finset.sum_congr rfl fun j _ => ?_)
  unfold pick
  rw [word_eq i c m hc hm j.val j.isLt, logitBlock_apply]
  refine if_congr Iff.rfl (Finset.sum_congr rfl fun d _ => ?_) rfl
  rw [wRows_apply]

/-- The embeddings and the labels pass through a cast to their own shape unchanged. -/
private theorem pay7_eq (x0 : S256x512.Idx → EReal) : k0_pay7 (F := Ideal) x0 = x0 := shapeCast_self _ _
private theorem pay8_eq (x2 : S256x1.Idx → BitVec 32) : k0_pay8 (F := Ideal) x2 = x2 := shapeCast_self _ _
private theorem pay1_eq (X : FVec Ideal S256x1 .f32) : k0_pay1 (F := Ideal) X = X := shapeCast_self _ _

/-- The zero word, read as a number, is zero. -/
private theorem zero_eq : (Scalar.ofBits (F := Ideal) .f32 0x00000000#32 : EReal) = 0 := Ideal.ofBits_zero_f32

/-- The first chunk. -/
private theorem pay10_apply (i : grid0.Coords) (x0 : S256x512.Idx → EReal) (x1 : S5000x512.Idx → EReal)
    (x2 : S256x1.Idx → BitVec 32) (acc : FVec Ideal S256x1 .f32) (h : 0 ≤ 4000) (b : Fin 256) (u : Fin 1) :
    k0_pay10 (F := Ideal) i x0 x2 acc (wRows (F := Ideal) x1 0 h) (ix2 b u)
      = acc (ix2 b u) + ∑ j ∈ Finset.range 1000, pick i x0 x1 x2 b (0 + j) := by
  unfold k0_pay10 k0_pay9
  exact chunk_pick i x0 x1 x2 acc (Scalar.muli 0#32 1000#32) 0 (by decide) h _ zero_eq _ (pay7_eq x0) _ (pay8_eq x2) _ _ _ _ _ _ _ b u

/-- The second chunk. -/
private theorem pay13_apply (i : grid0.Coords) (x0 : S256x512.Idx → EReal) (x1 : S5000x512.Idx → EReal)
    (x2 : S256x1.Idx → BitVec 32) (A : FVec Ideal S256x1 .f32) (h : 1000 ≤ 4000) (b : Fin 256) (u : Fin 1) :
    k0_pay13 (F := Ideal) (k0_pay7 x0) (k0_pay8 (F := Ideal) x2) (tileBase i) A (wRows (F := Ideal) x1 1000 h) (ix2 b u)
      = A (ix2 b u) + ∑ j ∈ Finset.range 1000, pick i x0 x1 x2 b (1000 + j) := by
  unfold k0_pay13 k0_pay12
  exact chunk_pick i x0 x1 x2 A (Scalar.muli 1#32 1000#32) 1000 (by decide) h _ zero_eq _ (pay7_eq x0) _ (pay8_eq x2) _ _ _ _ _ _ _ b u

/-- The third chunk. -/
private theorem pay16_apply (i : grid0.Coords) (x0 : S256x512.Idx → EReal) (x1 : S5000x512.Idx → EReal)
    (x2 : S256x1.Idx → BitVec 32) (A : FVec Ideal S256x1 .f32) (h : 2000 ≤ 4000) (b : Fin 256) (u : Fin 1) :
    k0_pay16 (F := Ideal) (k0_pay7 x0) (k0_pay8 (F := Ideal) x2) (tileBase i) A (2000#32) (wRows (F := Ideal) x1 2000 h) (ix2 b u)
      = A (ix2 b u) + ∑ j ∈ Finset.range 1000, pick i x0 x1 x2 b (2000 + j) := by
  unfold k0_pay16 k0_pay15
  exact chunk_pick i x0 x1 x2 A (2000#32) 2000 (by decide) h _ zero_eq _ (pay7_eq x0) _ (pay8_eq x2) _ _ _ _ _ _ _ b u

/-- The fourth and fifth chunks. -/
private theorem pay22_apply (i : grid0.Coords) (x0 : S256x512.Idx → EReal) (x1 : S5000x512.Idx → EReal)
    (x2 : S256x1.Idx → BitVec 32) (A : FVec Ideal S256x1 .f32) (h3 : 3000 ≤ 4000) (h4 : 4000 ≤ 4000) (b : Fin 256) (u : Fin 1) :
    k0_pay22 (F := Ideal) (k0_pay7 x0) (k0_pay8 (F := Ideal) x2) (tileBase i) A (k0_pay18 (k0_pay7 x0) (wRows (F := Ideal) x1 3000 h3))
        (k0_pay19 (k0_pay8 (F := Ideal) x2) (tileBase i)) (FloatOps.ofBits .f32 0#32) (wRows (F := Ideal) x1 4000 h4) (ix2 b u)
      = A (ix2 b u) + ∑ j ∈ Finset.range 1000, pick i x0 x1 x2 b (3000 + j)
          + ∑ j ∈ Finset.range 1000, pick i x0 x1 x2 b (4000 + j) := by
  unfold k0_pay22 k0_pay21 k0_pay18 k0_pay19
  refine (chunk_pick i x0 x1 x2 _ (Scalar.muli 4#32 1000#32) 4000 (by decide) h4 _ zero_eq _ (pay7_eq x0) _ (pay8_eq x2) _ _ _ _ _ _ _ b u).trans ?_
  refine congrArg (· + ∑ j ∈ Finset.range 1000, pick i x0 x1 x2 b (4000 + j)) ?_
  exact chunk_pick i x0 x1 x2 A (Scalar.muli 3#32 1000#32) 3000 (by decide) h3 _ zero_eq _ (pay7_eq x0) _ (pay8_eq x2) _ _ _ _ _ _ _ b u

/-- A sum over five thousand numbers, a thousand at a time. -/
private theorem sum_five (a : EReal) (g : ℕ → EReal) :
    a + ∑ j ∈ Finset.range 1000, g (0 + j) + ∑ j ∈ Finset.range 1000, g (1000 + j) + ∑ j ∈ Finset.range 1000, g (2000 + j)
        + ∑ j ∈ Finset.range 1000, g (3000 + j) + ∑ j ∈ Finset.range 1000, g (4000 + j)
      = a + ∑ j ∈ Finset.range 5000, g j := by
  have h4 : ∑ j ∈ Finset.range 5000, g j = ∑ j ∈ Finset.range 4000, g j + ∑ j ∈ Finset.range 1000, g (4000 + j) :=
    Finset.sum_range_add g 4000 1000
  have h3 : ∑ j ∈ Finset.range 4000, g j = ∑ j ∈ Finset.range 3000, g j + ∑ j ∈ Finset.range 1000, g (3000 + j) :=
    Finset.sum_range_add g 3000 1000
  have h2 : ∑ j ∈ Finset.range 3000, g j = ∑ j ∈ Finset.range 2000, g j + ∑ j ∈ Finset.range 1000, g (2000 + j) :=
    Finset.sum_range_add g 2000 1000
  have h1 : ∑ j ∈ Finset.range 2000, g j = ∑ j ∈ Finset.range 1000, g j + ∑ j ∈ Finset.range 1000, g (1000 + j) :=
    Finset.sum_range_add g 1000 1000
  have h0 : ∑ j ∈ Finset.range 1000, g (0 + j) = ∑ j ∈ Finset.range 1000, g j :=
    Finset.sum_congr rfl fun j _ => by rw [Nat.zero_add]
  rw [h4, h3, h2, h1, h0, ← add_assoc, ← add_assoc, ← add_assoc, ← add_assoc]

/-- THE LABEL-LOGIT COLUMN after a tile: row `b` gains, over the tile's 5000 rows `j`, the inner product of the embedding
    row with weight row `j` where the row's label word is the class number `tileNo · 5000 + j`. -/
theorem spAfter_apply (i : grid0.Coords) (x0 : S256x512.Idx → EReal) (x1 : S5000x512.Idx → EReal)
    (x2 : S256x1.Idx → BitVec 32) (acc : S256x1.Idx → EReal) (b : Fin 256) (u : Fin 1) :
    spAfter (F := Ideal) i x0 x1 x2 acc (ix2 b u)
      = acc (ix2 b u) + ∑ j ∈ Finset.range 5000,
          (if x2 (ix2 b (0 : Fin 1)) = BitVec.ofNat 32 (tileNo i * 5000 + j)
            then ∑ d : Fin 512, x0 (ix2 b d) * rowN x1 j d else 0) := by
  unfold spAfter
  rw [pay1_eq, pay22_apply, pay16_apply, pay13_apply, pay10_apply]
  exact sum_five (acc (ix2 b u)) (pick i x0 x1 x2 b)

end Cert.Circle.K

end
-- ==== Proof.KStepSn.lean ====
/-
  The total of the negative terms of a tile, at the ideal instance: it gains the negative term of every (row, class) pair
  of the tile, whatever the order in which the chunks, the rows and the lanes are summed.
-/
import proofs.«401017_j79980880986260_3_alg».proof.Proof.KDefs
import proofs.«401017_j79980880986260_3_alg».proof.Proof.Spec
import proofs.«401017_j79980880986260_3_alg».proof.Proof.LibSums
import Idealize.ShloMosaic.Lib.ValueIdx
import Idealize.ShloMosaic.Lib.ValueLayout
import Idealize.ShloMosaic.PureOps.Ideal.Laws

set_option maxRecDepth 16384

noncomputable section

open scoped BigOperators

namespace Cert.Circle.K

open Cert.KernelIdeal Cert.KernelIdeal.Gen Idealize.ShloMosaic Idealize.ShloMosaic.ValueIdx Cert.Circle

/-! ## The pointwise term -/

/-- The negative term as the vector operations form it from a block of logits: at (b, j) it is the negative term of the
    logit there. -/
private theorem negPoint (L : S256x1000.Idx → EReal) (b : Fin 256) (j : Fin 1000) :
    (exp (mulf (mulf (broadcast S256x1000 (FloatOps.ofBits (F := Ideal) .f32 0x42800000#32))
        (maximumf (addf L (broadcast S256x1000 (FloatOps.ofBits (F := Ideal) .f32 0x3E800000#32)))
          (broadcast S256x1000 (FloatOps.ofBits (F := Ideal) .f32 0x00000000#32))))
        (subf L (broadcast S256x1000 (FloatOps.ofBits (F := Ideal) .f32 0x3E800000#32)))) : FVec Ideal S256x1000 .f32) (ix2 b j)
      = negTerm (L (ix2 b j)) := rfl

/-! ## A block of logits -/

/-- The left operand's index keeps the row of the result's index … -/
private theorem dotL0 (i : S256x1000.Idx) (q : dot_S256x512_S1000x512_S256x1000_1_1_0_0_n_n.contr.Idx) :
    (dot_S256x512_S1000x512_S256x1000_1_1_0_0_n_n.lhsIdx i q 0).val = (i 0).val := by
  unfold DotDims.lhsIdx
  rw [dif_neg (show ¬(0 : Fin S256x512.rank) ∈ dot_S256x512_S1000x512_S256x1000_1_1_0_0_n_n.lhsBatch by decide), dif_pos (show (0 : Fin S256x512.rank) ∈ dot_S256x512_S1000x512_S256x1000_1_1_0_0_n_n.lhsNonContracting by decide)]
  rfl
/-- … and takes the contraction position on its axis 1. -/
private theorem dotL1 (i : S256x1000.Idx) (q : dot_S256x512_S1000x512_S256x1000_1_1_0_0_n_n.contr.Idx) :
    (dot_S256x512_S1000x512_S256x1000_1_1_0_0_n_n.lhsIdx i q 1).val = (q ⟨0, by decide⟩).val :=
  dot_S256x512_S1000x512_S256x1000_1_1_0_0_n_n.lhsIdx_val_of_single rfl i q
/-- The right operand's index takes the result's column as its row … -/
private theorem dotR0 (i : S256x1000.Idx) (q : dot_S256x512_S1000x512_S256x1000_1_1_0_0_n_n.contr.Idx) :
    (dot_S256x512_S1000x512_S256x1000_1_1_0_0_n_n.rhsIdx i q 0).val = (i 1).val := by
  unfold DotDims.rhsIdx
  rw [dif_neg (show ¬(0 : Fin S1000x512.rank) ∈ dot_S256x512_S1000x512_S256x1000_1_1_0_0_n_n.rhsBatch by decide), dif_pos (show (0 : Fin S1000x512.rank) ∈ dot_S256x512_S1000x512_S256x1000_1_1_0_0_n_n.rhsNonContracting by decide)]
  rfl
/-- … and the contraction position on its axis 1. -/
private theorem dotR1 (i : S256x1000.Idx) (q : dot_S256x512_S1000x512_S256x1000_1_1_0_0_n_n.contr.Idx) :
    (dot_S256x512_S1000x512_S256x1000_1_1_0_0_n_n.rhsIdx i q 1).val = (q ⟨0, by decide⟩).val :=
  dot_S256x512_S1000x512_S256x1000_1_1_0_0_n_n.rhsIdx_val_of_single rfl i q

/-- A block of logits at (b, j): the inner product of row b of the embeddings and row j of the block of weight rows
    (the narrowing of the weights is the identity on extended reals, the accumulator is zero). -/
private theorem logitBlock_apply (v4 : FVec Ideal S256x512 .bf16) (w : FVec Ideal S1000x512 .f32) (b : Fin 256) (j : Fin 1000) :
    (matmul dot_S256x512_S1000x512_S256x1000_1_1_0_0_n_n none v4
        (truncf .bf16 w bitsLt_bf16_f32) (constant S256x1000 .f32 0x00000000#32) : FVec Ideal S256x1000 .f32) (ix2 b j)
      = ∑ d : Fin 512, v4 (ix2 b d) * w (ix2 j d) := by
  refine (Ideal.matmul_constant_zero_apply dot_S256x512_S1000x512_S256x1000_1_1_0_0_n_n none v4
    (truncf .bf16 w bitsLt_bf16_f32) (ix2 b j)).trans ?_
  rw [← Equiv.sum_comp (contrEquiv1 dot_S256x512_S1000x512_S256x1000_1_1_0_0_n_n 512 rfl rfl).symm]
  refine Finset.sum_congr rfl fun k _ => ?_
  have hk := contrEquiv1_symm_val dot_S256x512_S1000x512_S256x1000_1_1_0_0_n_n 512 rfl rfl k
  have el : dot_S256x512_S1000x512_S256x1000_1_1_0_0_n_n.lhsIdx (ix2 b j) ((contrEquiv1 dot_S256x512_S1000x512_S256x1000_1_1_0_0_n_n 512 rfl rfl).symm k) = ix2 b k := funext fun a => Fin.ext (by
    match a with
    | ⟨0, _⟩ => exact dotL0 _ _
    | ⟨1, _⟩ => exact (dotL1 _ _).trans hk)
  have er : dot_S256x512_S1000x512_S256x1000_1_1_0_0_n_n.rhsIdx (ix2 b j) ((contrEquiv1 dot_S256x512_S1000x512_S256x1000_1_1_0_0_n_n 512 rfl rfl).symm k) = ix2 j k := funext fun a => Fin.ext (by
    match a with
    | ⟨0, _⟩ => exact dotR0 _ _
    | ⟨1, _⟩ => exact (dotR1 _ _).trans hk)
  rw [el, er]
  rfl

/-! ## The rows of a chunk -/

/-- Row j of the thousand rows from row off on is row off + j of the tile. -/
private theorem wRows_apply (x1 : S5000x512.Idx → EReal) (off : ℕ) (h : off ≤ 4000) (j : Fin 1000) (d : Fin 512) :
    wRows (F := Ideal) x1 off h (ix2 j d) = rowN x1 (off + j.val) d := by
  have hj : off + j.val < 5000 := by have := j.isLt; omega
  unfold rowN
  rw [dif_pos hj]
  show x1 _ = x1 _
  refine congrArg x1 (funext fun a => Fin.ext ?_)
  match a with
  | ⟨0, _⟩ => show off + 1 * j.val = off + j.val; omega
  | ⟨1, _⟩ => show 0 + 1 * d.val = d.val; omega

/-! ## One chunk of the total -/

/-- The total gains, from a block of terms, the sum over its rows of the sum over its lanes. -/
private theorem chunkTotal (acc : FVec Ideal S1x1 .f32) (E : FVec Ideal S256x1000 .f32)
    (h1 : S256x1000.Reduces [1] S256) (hc : S256.ShapeCasts S256x1) (h0 : S256x1.Reduces [0] S1) (hc' : S1.ShapeCasts S1x1)
    (hφ hφ' : FKind.Formats .f32) (hacc hacc' : (0x00000000#32 : BitVec 32) = 0x00000000#32) (u v : Fin 1) :
    (addf acc (shapeCast S1x1 (multiReduction (F := Ideal) .add [0] S1
        (shapeCast S256x1 (multiReduction (F := Ideal) .add [1] S256 E 0x00000000#32 h1 hφ hacc) hc)
        0x00000000#32 h0 hφ' hacc') hc')) (ix2 u v)
      = acc (ix2 u v) + ∑ b : Fin 256, ∑ j : Fin 1000, E (ix2 b j) := by
  rw [addf_apply, LibSums.shapeCast_a_a1_apply, LibSums.vecSum_all2]

/-- One chunk: the total gains the negative term of every (row, class) pair of the chunk's thousand classes. -/
private theorem chunkStep (x0 : FVec Ideal S256x512 .bf16) (x1 : S5000x512.Idx → EReal) (off : ℕ) (h : off ≤ 4000)
    (acc : FVec Ideal S1x1 .f32) (hx : S256x512.ShapeCasts S256x512)
    (h1 : S256x1000.Reduces [1] S256) (hc : S256.ShapeCasts S256x1) (h0 : S256x1.Reduces [0] S1) (hc' : S1.ShapeCasts S1x1)
    (hφ hφ' : FKind.Formats .f32) (hacc hacc' : (0x00000000#32 : BitVec 32) = 0x00000000#32) (u v : Fin 1) :
    (addf acc (shapeCast S1x1 (multiReduction (F := Ideal) .add [0] S1
        (shapeCast S256x1 (multiReduction (F := Ideal) .add [1] S256
          (exp (mulf (mulf (broadcast S256x1000 (FloatOps.ofBits (F := Ideal) .f32 0x42800000#32))
            (maximumf (addf
                (matmul dot_S256x512_S1000x512_S256x1000_1_1_0_0_n_n none (shapeCast S256x512 x0 hx)
                  (truncf .bf16 (wRows (F := Ideal) x1 off h) bitsLt_bf16_f32) (constant S256x1000 .f32 0x00000000#32))
                (broadcast S256x1000 (FloatOps.ofBits (F := Ideal) .f32 0x3E800000#32)))
              (broadcast S256x1000 (FloatOps.ofBits (F := Ideal) .f32 0x00000000#32))))
            (subf
              (matmul dot_S256x512_S1000x512_S256x1000_1_1_0_0_n_n none (shapeCast S256x512 x0 hx)
                (truncf .bf16 (wRows (F := Ideal) x1 off h) bitsLt_bf16_f32) (constant S256x1000 .f32 0x00000000#32))
              (broadcast S256x1000 (FloatOps.ofBits (F := Ideal) .f32 0x3E800000#32)))))
          0x00000000#32 h1 hφ hacc) hc)
        0x00000000#32 h0 hφ' hacc') hc')) (ix2 u v)
      = acc (ix2 u v) + ∑ j : Fin 1000, ∑ b : Fin 256, negTerm (∑ d : Fin 512, x0 (ix2 b d) * rowN x1 (off + j.val) d) := by
  refine (chunkTotal acc _ h1 hc h0 hc' hφ hφ' hacc hacc' u v).trans ?_
  refine congrArg (acc (ix2 u v) + ·) ?_
  rw [Finset.sum_comm]
  refine Finset.sum_congr rfl fun j _ => Finset.sum_congr rfl fun b _ => ?_
  refine (negPoint _ b j).trans (congrArg negTerm ?_)
  refine (logitBlock_apply _ _ b j).trans ?_
  rw [shapeCast_self]
  exact Finset.sum_congr rfl fun d _ => congrArg (x0 (ix2 b d) * ·) (wRows_apply x1 off h j d)

/-! ## The five chunks of a tile, joined -/

/-- Five runs of a thousand consecutive class numbers are the first five thousand. -/
private theorem five_runs (G : ℕ → EReal) (a : EReal) :
    a + ∑ j : Fin 1000, G (0 + j.val) + ∑ j : Fin 1000, G (1000 + j.val) + ∑ j : Fin 1000, G (2000 + j.val)
        + ∑ j : Fin 1000, G (3000 + j.val) + ∑ j : Fin 1000, G (4000 + j.val)
      = a + ∑ j ∈ Finset.range 5000, G j := by
  have e : ∀ off : ℕ, ∑ j : Fin 1000, G (off + j.val) = ∑ j ∈ Finset.range 1000, G (off + j) :=
    fun off => (Finset.sum_range (fun n => G (off + n))).symm
  have s5 : ∑ x ∈ Finset.range 5000, G x = ∑ x ∈ Finset.range 4000, G x + ∑ x ∈ Finset.range 1000, G (4000 + x) :=
    Finset.sum_range_add G 4000 1000
  have s4 : ∑ x ∈ Finset.range 4000, G x = ∑ x ∈ Finset.range 3000, G x + ∑ x ∈ Finset.range 1000, G (3000 + x) :=
    Finset.sum_range_add G 3000 1000
  have s3 : ∑ x ∈ Finset.range 3000, G x = ∑ x ∈ Finset.range 2000, G x + ∑ x ∈ Finset.range 1000, G (2000 + x) :=
    Finset.sum_range_add G 2000 1000
  have s2 : ∑ x ∈ Finset.range 2000, G x = ∑ x ∈ Finset.range 1000, G x + ∑ x ∈ Finset.range 1000, G (1000 + x) :=
    Finset.sum_range_add G 1000 1000
  have s1 : ∑ x ∈ Finset.range 1000, G x = ∑ x ∈ Finset.range 1000, G (0 + x) :=
    Finset.sum_congr rfl fun x _ => congrArg G (Nat.zero_add x).symm
  rw [e, e, e, e, e, s5, s4, s3, s2, s1]
  simp only [add_assoc]

/-- THE NEGATIVE TOTAL after a tile: it gains the negative term of every (row, class) pair of the tile. -/
theorem snAfter_apply (x0 : S256x512.Idx → EReal) (x1 : S5000x512.Idx → EReal) (acc : S1x1.Idx → EReal) (u v : Fin 1) :
    snAfter (F := Ideal) x0 x1 acc (ix2 u v)
      = acc (ix2 u v) + ∑ j ∈ Finset.range 5000, ∑ b : Fin 256, negTerm (∑ d : Fin 512, x0 (ix2 b d) * rowN x1 j d) := by
  unfold snAfter
  simp only [k0_pay2, k0_pay20, k0_pay17, k0_pay14, k0_pay18, k0_pay21, k0_pay23, k0_pay9, k0_pay11, k0_pay15, k0_pay12, k0_pay7]
  refine (congrFun (shapeCast_self _ _) _).trans ?_
  rw [chunkStep, chunkStep, chunkStep, chunkStep, chunkStep]
  exact five_runs (fun n => ∑ b : Fin 256, negTerm (∑ d : Fin 512, x0 (ix2 b d) * rowN x1 n d)) (acc (ix2 u v))

end Cert.Circle.K

end
-- ==== Proof.KRun.lean ====
/-
  The kernel program's run, read: its one result is the kernel's loss of the scaled embeddings, the weights and the
  labels, the arguments unchanged. The result arrays' stripes hold the halves' full gatherings, and the lines after the
  region add the two stripes up.
-/
import proofs.«401017_j79980880986260_3_alg».proof.Proof.Gen.KernelIdeal.Frame
import proofs.«401017_j79980880986260_3_alg».proof.Proof.KDefs
import Idealize.ShloMosaic.Lib.Pipeline.Value
import proofs.«401017_j79980880986260_3_alg».proof.Proof.KFinal
import proofs.«401017_j79980880986260_3_alg».proof.Proof.KHost
import proofs.«401017_j79980880986260_3_alg».proof.Proof.KStepSp
import proofs.«401017_j79980880986260_3_alg».proof.Proof.KStepSn
import proofs.«401017_j79980880986260_3_alg».proof.Proof.Spec
import Idealize.ShloMosaic.Lib.ValueIdx
set_option maxRecDepth 16384

noncomputable section

namespace Cert.Circle.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.ValueIdx Cert.Circle
open scoped BigOperators

variable (m : (ℓ : Loc nD τ sig) → Buf (Elt Ideal) ℓ) (ρ : Dev nD → PrngReg)

theorem spStep : SpStep := fun i x0 x1 x2 acc b u => spAfter_apply i x0 x1 x2 acc b u

theorem snStep : SnStep := fun x0 x1 acc u v => snAfter_apply x0 x1 acc u v

/-- The labels as the region finds them are the label argument. -/
theorem labA_eq (c : Dev nD) : labA m c = m ((c : Thread nD τ).loc main_arg1) := by
  funext i
  unfold labA
  rw [KHost.V_lab]
  exact congrArg _ (eq_ix1 i).symm

/-- The program's result after the lines that follow the region. -/
theorem kernel_value (c : Dev nD) :
    (Pipeline.afterTail₀ cfgs (dats m) 0 (V0 m) [hostOps1] c main_v43 : S_.Idx → EReal)
      = fun _ => kerLoss (normalize (m ((c : Thread nD τ).loc main_arg2))) (m ((c : Thread nD τ).loc main_arg3))
          (m ((c : Thread nD τ).loc main_arg1)) := by
  rw [KHost.tail_value m c, final3 m spStep snStep c, final4 m spStep snStep c]
  have hff : ffA m c = normalize (m ((c : Thread nD τ).loc main_arg2)) := KHost.V_ff m c
  have hW : WA m c = m ((c : Thread nD τ).loc main_arg3) := V_main_arg3 m c
  have hsp : ∀ (b : Fin 256) (k : Fin 2), G3 m c (ix2 b ⟨k.val * 128, by omega⟩)
      = spPart (normalize (m ((c : Thread nD τ).loc main_arg2))) (m ((c : Thread nD τ).loc main_arg3))
          (m ((c : Thread nD τ).loc main_arg1)) k.val 50000 b := by
    intro b k
    unfold G3
    rw [hff, hW, labA_eq]
    congr 1
    show k.val * 128 / 128 = k.val
    omega
  have hsn : ∀ (k : Fin 2), G4 m c (ix2 (0 : Fin 8) ⟨k.val * 128, by omega⟩)
      = snPart (normalize (m ((c : Thread nD τ).loc main_arg2))) (m ((c : Thread nD τ).loc main_arg3)) k.val 50000 := by
    intro k
    unfold G4
    rw [hff, hW]
    congr 1
    show k.val * 128 / 128 = k.val
    omega
  unfold tailLoss kerLoss
  simp only [hsp, hsn]

/-- THE KERNEL'S RUN: every weakly fair execution ends with the result at the kernel's loss, the arguments unchanged. -/
theorem kernel_run :
    θ_run defs (onTc (τ := τ) (main (F := Ideal))) ⟨m, fun _ => 0, ρ⟩ fun r => ∀ c : Dev nD,
      r.2.mem ((c.tc : Thread nD τ).loc main_v43)
          = (fun _ => kerLoss (normalize (m ((c.tc : Thread nD τ).loc main_arg2))) (m ((c.tc : Thread nD τ).loc main_arg3))
              (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v43 (Pipeline.mem_restRefs_of main_v43 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.Circle.K

end
-- ==== Proof.lean ====
/-
  The circle loss, streamed over the classes in two halves of ten tiles of 5000 classes each, against the same loss taken
  over all the classes at once.

  Both programs scale the embedding rows to unit length and take every row's logit against every class. The reference
  reads each row's label logit by its label, masks the label column out of the negative terms, and sums. The kernel
  never builds the mask: each half gathers, tile by tile, every row's logit at the class whose number is the row's label
  word (a sum in which all other classes contribute zero) and the negative terms of ALL its classes; afterwards the two
  halves' stripes are added, and the negative terms of the label columns, recomputed from the label logits, are taken away.

  The two agree when the labels are class numbers (then the gathered logit is the logit at the label, and the
  recomputed terms are the label columns' terms) and the inputs are finite (then every term is a real number, so taking
  the label columns' terms away again leaves exactly the masked sum). The sums over classes may be taken in any order
  and grouping among the extended reals.

  The three frames: the two kernel programs' are the generated frame certificates; the reference's is its run, read.
-/
import proofs.«401017_j79980880986260_3_alg».proof.Defs
import proofs.«401017_j79980880986260_3_alg».proof.Proof.Gen.Kernel
import proofs.«401017_j79980880986260_3_alg».proof.Proof.Gen.Kernel.Skeleton
import proofs.«401017_j79980880986260_3_alg».proof.Proof.Gen.Kernel.Launch
import proofs.«401017_j79980880986260_3_alg».proof.Proof.Gen.Kernel.Points
import proofs.«401017_j79980880986260_3_alg».proof.Proof.Gen.Kernel.Frame
import proofs.«401017_j79980880986260_3_alg».proof.Proof.Gen.KernelIdeal
import proofs.«401017_j79980880986260_3_alg».proof.Proof.Gen.KernelIdeal.Skeleton
import proofs.«401017_j79980880986260_3_alg».proof.Proof.Gen.KernelIdeal.Launch
import proofs.«401017_j79980880986260_3_alg».proof.Proof.Gen.KernelIdeal.Points
import proofs.«401017_j79980880986260_3_alg».proof.Proof.Gen.KernelIdeal.Frame
import proofs.«401017_j79980880986260_3_alg».proof.Proof.Gen.ReferenceIdeal
import proofs.«401017_j79980880986260_3_alg».proof.Proof.Gen.Pre_finite_inputs
import proofs.«401017_j79980880986260_3_alg».proof.Proof.Spec
import proofs.«401017_j79980880986260_3_alg».proof.Proof.Pre
import proofs.«401017_j79980880986260_3_alg».proof.Proof.Bridge
import proofs.«401017_j79980880986260_3_alg».proof.Proof.RefValue
import proofs.«401017_j79980880986260_3_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Circle.Ref.ref_run m ρ)

/-- The idealization rewrote nothing. -/
theorem preserves : Cert.preserves_Kernel_KernelIdeal := trivial

/-- The kernel's run ends at the kernel's loss, the reference's at the reference's loss, of arguments that agree; under the
    precondition (real inputs, labels that are class numbers) the two losses are one number. -/
theorem algebraic : Cert.algebraic_KernelIdeal_ReferenceIdeal := by
  intro m ρ m' ρ' hpre hagree
  refine ⟨fun c => fun _ => Cert.Circle.kerLoss
      (Cert.Circle.normalize (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1)),
    Cert.Circle.K.kernel_run m ρ, ?_⟩
  refine (θ_run Cert.ReferenceIdeal.defs _ _).mono (fun _ h c => ⟨(h c).1.trans ?_, (h c).2⟩)
    (Cert.Circle.Ref.ref_run m' ρ')
  obtain ⟨hE, hW, hL⟩ := Cert.Circle.of_pre _ _ _ _ (hpre c)
  rw [(hagree c).2.1, (hagree c).2.2.1, (hagree c).2.2.2]
  funext _
  exact (Cert.Circle.loss_bridge _ _ _ (fun i => Cert.Circle.normalize_real _ hE i) hW hL).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
